-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400000x3 : Shape := ⟨2, ![6400000, 3]⟩
abbrev S32 : Shape := ⟨1, ![32]⟩
abbrev S2x6400000 : Shape := ⟨2, ![2, 6400000]⟩
abbrev S100000 : Shape := ⟨1, ![100000]⟩
abbrev S_ : Shape := ⟨0, ![]⟩
abbrev S1x6400000 : Shape := ⟨2, ![1, 6400000]⟩
abbrev S6400000 : Shape := ⟨1, ![6400000]⟩

class Facts : Prop where
  bcast_S_S6400000x3 : S_.BroadcastsInDim S6400000x3 (![] : Fin 0 → Fin S6400000x3.rank)
  reducesTo_S6400000x3_S_d0_1 : S6400000x3.ReducesTo [0, 1] S_
  h_S_ : 0 < S_.numel
  bcast_S_S32 : S_.BroadcastsInDim S32 (![] : Fin 0 → Fin S32.rank)
  reducesTo_S32_S_d0 : S32.ReducesTo [0] S_
  slices_S2x6400000_S1x6400000_1_0 : S2x6400000.Slices ![1, 0] S1x6400000
  shapeCasts_S1x6400000_S6400000 : S1x6400000.ShapeCasts S6400000
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg3 : IVec S2x6400000 32) (main_v13 : IVec S_ 1) (main_v15 : IVec S6400000 32) (main_v16 : IVec S6400000 32) : IVec S_ 1 :=
  let main_v17 : IVec S6400000 1 := cmpi .sge main_v15 main_v16
  let main_v18 : IVec S1x6400000 32 := (extractStridedSlice S1x6400000 ![1, 0] · slices_S2x6400000_S1x6400000_1_0) main_arg3
  let main_v19 : IVec S6400000 32 := shapeCast S6400000 main_v18 shapeCasts_S1x6400000_S6400000
  let main_c_5 : IVec S_ 32 := constantI S_ 32 100000#32
  let main_v20 : IVec S6400000 32 := broadcastInDim S6400000 ![] bcast_S_S6400000 main_c_5
  let main_v21 : IVec S6400000 1 := cmpi .slt main_v19 main_v20
  let main_v22 : IVec S6400000 1 := andi main_v17 main_v21
  let main_c_6 : IVec S_ 1 := constantI S_ 1 1#1
  let main_v23 : IVec S_ 1 := (fun x v => Host.reduce IntOp.andi x v reducesTo_S6400000_S_d0 h_S_) main_v22 main_c_6
  let main_v24 : IVec S_ 1 := andi main_v13 main_v23
  main_v24

def fn {F : FTy → Type} [FloatOps F] (main_arg0 : FVec F S6400000x3 .f32) (main_arg1 : FVec F S6400000x3 .f32) (main_arg2 : FVec F S32 .f32) (main_arg3 : IVec S2x6400000 32) (main_arg4 : IVec S100000 32) : IVec S_ 1 :=
  let main_v0 : FVec F S6400000x3 .f32 := Host.absf main_arg0
  let main_cst : FVec F S_ .f32 := constant S_ .f32 0x7F800000#32
  let main_v1 : FVec F S6400000x3 .f32 := broadcastInDim S6400000x3 ![] bcast_S_S6400000x3 main_cst
  let main_v2 : IVec S6400000x3 1 := cmpf .olt main_v0 main_v1
  let main_c : IVec S_ 1 := constantI S_ 1 1#1
  let main_v3 : IVec S_ 1 := (fun x v => Host.reduce IntOp.andi x v reducesTo_S6400000x3_S_d0_1 h_S_) main_v2 main_c
  let main_v4 : FVec F S6400000x3 .f32 := Host.absf main_arg1
  let main_cst_0 : FVec F S_ .f32 := constant S_ .f32 0x7F800000#32
  let main_v5 : FVec F S6400000x3 .f32 := broadcastInDim S6400000x3 ![] bcast_S_S6400000x3 main_cst_0
  let main_v6 : IVec S6400000x3 1 := cmpf .olt main_v4 main_v5
  let main_c_1 : IVec S_ 1 := constantI S_ 1 1#1
  let main_v7 : IVec S_ 1 := (fun x v => Host.reduce IntOp.andi x v reducesTo_S6400000x3_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : IVec S1x6400000 32 := (extractStridedSlice S1x6400000 ![1, 0] · slices_S2x6400000_S1x6400000_1_0) main_arg3
  let main_v15 : IVec S6400000 32 := shapeCast S6400000 main_v14 shapeCasts_S1x6400000_S6400000
  let main_c_4 : IVec S_ 32 := constantI S_ 32 0#32
  let main_v16 : IVec S6400000 32 := broadcastInDim S6400000 ![] bcast_S_S6400000 main_c_4
  fn_part1 (F := F) main_arg3 main_v13 main_v15 main_v16
-- ==== Kernel.lean ====
abbrev S6400000x3 : Shape := ⟨2, ![6400000, 3]⟩
abbrev S32 : Shape := ⟨1, ![32]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S32x6 : Shape := ⟨2, ![32, 6]⟩
abbrev S4000x3 : Shape := ⟨2, ![4000, 3]⟩
abbrev S4000x1 : Shape := ⟨2, ![4000, 1]⟩
abbrev S4000x6 : Shape := ⟨2, ![4000, 6]⟩
abbrev S4000x32 : Shape := ⟨2, ![4000, 32]⟩
abbrev S32x1 : Shape := ⟨2, ![32, 1]⟩
abbrev S100000x3 : Shape := ⟨2, ![100000, 3]⟩

abbrev nBuf : Space → Nat
  | .hbm => 33
  | .vmem => 8
  | .smem => 0
  | _ => 0

abbrev bufTy : (tb : Table) → Fin (tcTables nBuf tb) → BufTy
  | .hbm, ⟨0, _⟩ => ⟨S6400000x3, .f32⟩
  | .hbm, ⟨1, _⟩ => ⟨S6400000x3, .f32⟩
  | .hbm, ⟨2, _⟩ => ⟨S32, .f32⟩
  | .hbm, ⟨3, _⟩ => ⟨S2x6400000, .i32⟩
  | .hbm, ⟨4, _⟩ => ⟨S100000, .i32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .i32⟩
  | .hbm, ⟨18, _⟩ => ⟨S6400000x1, .i32⟩
  | .hbm, ⟨19, _⟩ => ⟨S32x6, .f32⟩
  | .hbm, ⟨20, _⟩ => ⟨S32x6, .f32⟩
  | .hbm, ⟨21, _⟩ => ⟨S32x1, .f32⟩
  | .hbm, ⟨22, _⟩ => ⟨S32x6, .f32⟩
  | .hbm, ⟨23, _⟩ => ⟨S32x6, .f32⟩
  | .hbm, ⟨24, _⟩ => ⟨S_, .f32⟩
  | .hbm, ⟨25, _⟩ => ⟨S100000x3, .f32⟩
  | .hbm, ⟨26, _⟩ => ⟨S6400000x1, .i32⟩
  | .hbm, ⟨27, _⟩ => ⟨S100000x3, .f32⟩
  | .hbm, ⟨28, _⟩ => ⟨S_, .f32⟩
  | .hbm, ⟨29, _⟩ => ⟨S100000x3, .f32⟩
  | .hbm, ⟨30, _⟩ => ⟨S6400000x1, .i32⟩
  | .hbm, ⟨31, _⟩ => ⟨S100000x3, .f32⟩
  | .hbm, ⟨32, _⟩ => ⟨S100000x3, .f32⟩
  | .local _ .vmem, ⟨0, _⟩ => ⟨S4000x3, .f32⟩
  | .local _ .vmem, ⟨1, _⟩ => ⟨S4000x3, .f32⟩
  | .local _ .vmem, ⟨2, _⟩ => ⟨S4000x3, .f32⟩
  | .local _ .vmem, ⟨3, _⟩ => ⟨S4000x3, .f32⟩
  | .local _ .vmem, ⟨4, _⟩ => ⟨S4000x1, .i32⟩
  | .local _ .vmem, ⟨5, _⟩ => ⟨S4000x1, .i32⟩
  | .local _ .vmem, ⟨6, _⟩ => ⟨S32x6, .f32⟩
  | .local _ .vmem, ⟨7, _⟩ => ⟨S32x6, .f32⟩
  | _, _ => ⟨S6400000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![1600], ![false]⟩

def k0_cond2 (i : grid0.Coords) : BitVec 1 :=
  let arg0 : BitVec 32 := BitVec.ofNat 32 (i 0).val
  let c1599_i32 : BitVec 32 := 1599#32
  let v31 : BitVec 1 := Scalar.cmpi .eq arg0 c1599_i32
  let v32 : BitVec 32 := Scalar.extui v31
  let c0_i32_10 : BitVec 32 := 0#32
  let v33 : BitVec 1 := Scalar.cmpi .ne v32 c0_i32_10
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S6400000x1 : S6400000.ShapeCasts S6400000x1
  inb_S32x6_S32x6_0_0 : ∀ a, (![0, 0] : Fin 2 → Nat) a + S32x6.size a ≤ S32x6.size a
  h_S32x6 : 0 < S32x6.numel
  shapeCasts_S32x6_S32x6 : S32x6.ShapeCasts S32x6
  inb_S4000x3_S4000x3_0_0 : ∀ a, (![0, 0] : Fin 2 → Nat) a + S4000x3.size a ≤ S4000x3.size a
  h_S4000x3 : 0 < S4000x3.numel
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  concatenates_S4000x3_S4000x1_S4000x1_S4000x1_S4000x6_d1 : Shape.Concatenates [S4000x3, S4000x1, S4000x1, S4000x1] S4000x6 1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x32_d1_w32 : S4000x32.Iotas .tc 32 [1]
  broadcasts_S4000x1_S4000x32 : S4000x1.Broadcasts S4000x32
  natLt_1_32 : 1 < 32
  bitsLt_bf16_f32 : FTy.bits .bf16 < FTy.bits .f32
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  bcast_S_S100000x3 : S_.BroadcastsInDim S100000x3 (![] : Fin 0 → Fin S100000x3.rank)
  gather_S100000_S6400000x1_S6400000_n_0_n_n_0_1_1_wf : GatherDims.WF S100000 S6400000x1 S6400000 [] [0] [] [0] [] 1 ![1]
  dot_S4000x32_S4000x6_S32x6_0_0_1_1_n_n_wf : DotDims.WF S4000x32 S4000x6 S32x6 [0] [0] [1] [1] [] []
  scatter_S100000x3_S6400000x1_S6400000x3_1_0_0_1_wf : ScatterDims.WF S100000x3 S6400000x1 S6400000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S6400000x3.size a
  hwx0_0 : ∀ i : grid0.Coords, EltTy.bits .f32 = 32 ∨ (Rect.block (s := S6400000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S6400000x3.size a
  hwx0_1 : ∀ i : grid0.Coords, EltTy.bits .f32 = 32 ∨ (Rect.block (s := S6400000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S6400000x1.size a
  hwx0_2 : ∀ i : grid0.Coords, EltTy.bits .i32 = 32 ∨ (Rect.block (s := S6400000x1) S4000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x6.size a ≤ S32x6.size a
  hwx0_3 : ∀ i : grid0.Coords, EltTy.bits .f32 = 32 ∨ (Rect.block (s := S32x6) S32x6.size (cc0_transform_3 i) (hinb0_3 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def dot_S4000x32_S4000x6_S32x6_0_0_1_1_n_n : DotDims S4000x32 S4000x6 S32x6 where
  lhsContracting := [0]
  rhsContracting := [0]
  lhsNonContracting := [1]
  rhsNonContracting := [1]
  lhsBatch := []
  rhsBatch := []
  wf := dot_S4000x32_S4000x6_S32x6_0_0_1_1_n_n_wf
def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x6.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S6400000x3 : Shape := ⟨2, ![6400000, 3]⟩
abbrev S32 : Shape := ⟨1, ![32]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S_ : Shape := ⟨0, ![]⟩
abbrev S100000x3 : Shape := ⟨2, ![100000, 3]⟩
abbrev S6400000x1 : Shape := ⟨2, ![6400000, 1]⟩
abbrev S6400000x6 : Shape := ⟨2, ![6400000, 6]⟩
abbrev S100000x6 : Shape := ⟨2, ![100000, 6]⟩
abbrev S32x6 : Shape := ⟨2, ![32, 6]⟩
abbrev S100000x1 : Shape := ⟨2, ![100000, 1]⟩
abbrev S32x1 : Shape := ⟨2, ![32, 1]⟩

abbrev nBuf : Space → Nat
  | .hbm => 50
  | .vmem => 0
  | .smem => 0
  | _ => 0

abbrev bufTy : (tb : Table) → Fin (tcTables nBuf tb) → BufTy
  | .hbm, ⟨0, _⟩ => ⟨S6400000x3, .f32⟩
  | .hbm, ⟨1, _⟩ => ⟨S6400000x3, .f32⟩
  | .hbm, ⟨2, _⟩ => ⟨S32, .f32⟩
  | .hbm, ⟨3, _⟩ => ⟨S2x6400000, .i32⟩
  | .hbm, ⟨4, _⟩ => ⟨S100000, .i32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .f32⟩
  | .hbm, ⟨10, _⟩ => ⟨S100000x3, .f32⟩
  | .hbm, ⟨11, _⟩ => ⟨S6400000x1, .i32⟩
  | .hbm, ⟨12, _⟩ => ⟨S100000x3, .f32⟩
  | .hbm, ⟨13, _⟩ => ⟨S_, .f32⟩
  | .hbm, ⟨14, _⟩ => ⟨S100000x3, .f32⟩
  | .hbm, ⟨15, _⟩ => ⟨S6400000x1, .i32⟩
  | .hbm, ⟨16, _⟩ => ⟨S100000x3, .f32⟩
  | .hbm, ⟨17, _⟩ => ⟨S100000x3, .f32⟩
  | .hbm, ⟨18, _⟩ => ⟨S6400000x3, .f32⟩
  | .hbm, ⟨19, _⟩ => ⟨S6400000x1, .f32⟩
  | .hbm, ⟨20, _⟩ => ⟨S6400000, .f32⟩
  | .hbm, ⟨21, _⟩ => ⟨S6400000x1, .f32⟩
  | .hbm, ⟨22, _⟩ => ⟨S6400000, .f32⟩
  | .hbm, ⟨23, _⟩ => ⟨S6400000, .f32⟩
  | .hbm, ⟨24, _⟩ => ⟨S6400000x1, .f32⟩
  | .hbm, ⟨25, _⟩ => ⟨S6400000, .f32⟩
  | .hbm, ⟨26, _⟩ => ⟨S6400000x1, .f32⟩
  | .hbm, ⟨27, _⟩ => ⟨S6400000, .f32⟩
  | .hbm, ⟨28, _⟩ => ⟨S6400000, .f32⟩
  | .hbm, ⟨29, _⟩ => ⟨S6400000x1, .f32⟩
  | .hbm, ⟨30, _⟩ => ⟨S6400000, .f32⟩
  | .hbm, ⟨31, _⟩ => ⟨S6400000x1, .f32⟩
  | .hbm, ⟨32, _⟩ => ⟨S6400000, .f32⟩
  | .hbm, ⟨33, _⟩ => ⟨S6400000, .f32⟩
  | .hbm, ⟨34, _⟩ => ⟨S6400000x1, .f32⟩
  | .hbm, ⟨35, _⟩ => ⟨S6400000x1, .f32⟩
  | .hbm, ⟨36, _⟩ => ⟨S6400000x1, .f32⟩
  | .hbm, ⟨37, _⟩ => ⟨S6400000x6, .f32⟩
  | .hbm, ⟨38, _⟩ => ⟨S_, .f32⟩
  | .hbm, ⟨39, _⟩ => ⟨S100000x6, .f32⟩
  | .hbm, ⟨40, _⟩ => ⟨S6400000x1, .i32⟩
  | .hbm, ⟨41, _⟩ => ⟨S100000x6, .f32⟩
  | .hbm, ⟨42, _⟩ => ⟨S_, .f32⟩
  | .hbm, ⟨43, _⟩ => ⟨S32x6, .f32⟩
  | .hbm, ⟨44, _⟩ => ⟨S100000x1, .i32⟩
  | .hbm, ⟨45, _⟩ => ⟨S32x6, .f32⟩
  | .hbm, ⟨46, _⟩ => ⟨S32x6, .f32⟩
  | .hbm, ⟨47, _⟩ => ⟨S32x1, .f32⟩
  | .hbm, ⟨48, _⟩ => ⟨S32x6, .f32⟩
  | .hbm, ⟨49, _⟩ => ⟨S32x6, .f32⟩
  | _, _ => ⟨S6400000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000x3 : S_.BroadcastsInDim S100000x3 (![] : Fin 0 → Fin S100000x3.rank)
  bcast_S6400000_S6400000x1_0 : S6400000.BroadcastsInDim S6400000x1 (![0] : Fin 1 → Fin S6400000x1.rank)
  slices_S6400000x3_S6400000x1_0_0 : S6400000x3.Slices ![0, 0] S6400000x1
  shapeCasts_S6400000x1_S6400000 : S6400000x1.ShapeCasts S6400000
  slices_S6400000x3_S6400000x1_0_1 : S6400000x3.Slices ![0, 1] S6400000x1
  slices_S6400000x3_S6400000x1_0_2 : S6400000x3.Slices ![0, 2] S6400000x1
  concatenates_S6400000x3_S6400000x1_S6400000x1_S6400000x1_S6400000x6_d1 : Shape.Concatenates [S6400000x3, S6400000x1, S6400000x1, S6400000x1] S6400000x6 1
  bcast_S_S100000x6 : S_.BroadcastsInDim S100000x6 (![] : Fin 0 → Fin S100000x6.rank)
  bcast_S_S32x6 : S_.BroadcastsInDim S32x6 (![] : Fin 0 → Fin S32x6.rank)
  bcast_S100000_S100000x1_0 : S100000.BroadcastsInDim S100000x1 (![0] : Fin 1 → Fin S100000x1.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  scatter_S100000x3_S6400000x1_S6400000x3_1_0_0_1_wf : ScatterDims.WF S100000x3 S6400000x1 S6400000x3 [1] [0] [0] 1
  scatter_S100000x6_S6400000x1_S6400000x6_1_0_0_1_wf : ScatterDims.WF S100000x6 S6400000x1 S6400000x6 [1] [0] [0] 1
  scatter_S32x6_S100000x1_S100000x6_1_0_0_1_wf : ScatterDims.WF S32x6 S100000x1 S100000x6 [1] [0] [0] 1

variable [Facts₀]

def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf
def scatter_S100000x6_S6400000x1_S6400000x6_1_0_0_1 : ScatterDims S100000x6 S6400000x1 S6400000x6 where
  updateWindowDims := [1]
  insertedWindowDims := [0]
  scatterDimsToOperandDims := [0]
  indexVectorDim := 1
  wf := scatter_S100000x6_S6400000x1_S6400000x6_1_0_0_1_wf
def scatter_S32x6_S100000x1_S100000x6_1_0_0_1 : ScatterDims S32x6 S100000x1 S100000x6 where
  updateWindowDims := [1]
  insertedWindowDims := [0]
  scatterDimsToOperandDims := [0]
  indexVectorDim := 1
  wf := scatter_S32x6_S100000x1_S100000x6_1_0_0_1_wf

class Facts : Prop extends Facts₀ where

variable [Facts]
-- ==== Proof.Pieces.lean ====
/-
  What each of the body's three control cases leaves behind, as values.  At the first grid point the body zeroes
  the accumulator and then adds the tile's contribution to it; at every later point it adds the tile's contribution
  to what the point before left; at the last point it also copies the accumulator, after the addition, to the output.
-/
import proofs.«419347_j18382460027058_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First point: the accumulator ends at the zero block plus the tile's contribution. -/
theorem sout_A (c : Dev nD) (i : grid0.Coords) (arg1 : Memref sig .tc .vmem S4000x3 .f32) (harg1 : arg1.IsWhole) (arg2 : Memref sig .tc .vmem S4000x3 .f32) (harg2 : arg2.IsWhole) (arg3 : Memref sig .tc .vmem S4000x1 .i32) (harg3 : arg3.IsWhole) (arg4 : Memref sig .tc .vmem S32x6 .f32) (harg4 : arg4.IsWhole) (arg5 : Memref sig .tc .vmem S32x6 .f32) (harg5 : arg5.IsWhole) (hc0 : cond0_0 i) (hc1 : ¬cond0_1 i)
    (x0 : Vec F S4000x3 .f32) (x1 : Vec F S4000x3 .f32) (x2 : Vec F S4000x1 .i32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S32x6) hz, View.readCov_unit_zero (S := S32x6) _ hz]
  simp only [View.readAt_eq_ld, harg1.read_unread, harg2.read_unread, harg3.read_unread, harg4.read_unread, harg5.read_unread,
    View.ld_unit_zero (S := S4000x3) hz, View.ld_unit_zero (S := S4000x1) hz, View.ld_unit_zero (S := S32x6) hz]

/-- A middle point: the accumulator ends at what the point before left plus the tile's contribution. -/
theorem sout_B (c : Dev nD) (i : grid0.Coords) (arg1 : Memref sig .tc .vmem S4000x3 .f32) (harg1 : arg1.IsWhole) (arg2 : Memref sig .tc .vmem S4000x3 .f32) (harg2 : arg2.IsWhole) (arg3 : Memref sig .tc .vmem S4000x1 .i32) (harg3 : arg3.IsWhole) (arg4 : Memref sig .tc .vmem S32x6 .f32) (harg4 : arg4.IsWhole) (arg5 : Memref sig .tc .vmem S32x6 .f32) (harg5 : arg5.IsWhole) (hc0 : ¬cond0_0 i) (hc1 : ¬cond0_1 i)
    (x0 : Vec F S4000x3 .f32) (x1 : Vec F S4000x3 .f32) (x2 : Vec F S4000x1 .i32) (xs0 : Vec F S32x6 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S4000x3) hz, View.ld_unit_zero (S := S4000x1) hz, View.ld_unit_zero (S := S32x6) hz]

/-- The last point: the same for the accumulator, -/
theorem sout_C (c : Dev nD) (i : grid0.Coords) (arg1 : Memref sig .tc .vmem S4000x3 .f32) (harg1 : arg1.IsWhole) (arg2 : Memref sig .tc .vmem S4000x3 .f32) (harg2 : arg2.IsWhole) (arg3 : Memref sig .tc .vmem S4000x1 .i32) (harg3 : arg3.IsWhole) (arg4 : Memref sig .tc .vmem S32x6 .f32) (harg4 : arg4.IsWhole) (arg5 : Memref sig .tc .vmem S32x6 .f32) (harg5 : arg5.IsWhole) (hc0 : ¬cond0_0 i) (hc1 : cond0_1 i)
    (x0 : Vec F S4000x3 .f32) (x1 : Vec F S4000x3 .f32) (x2 : Vec F S4000x1 .i32) (xs0 : Vec F S32x6 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg4.read_unread, harg5.read_unread,
    View.ld_unit_zero (S := S4000x3) hz, View.ld_unit_zero (S := S4000x1) hz, View.ld_unit_zero (S := S32x6) hz]

/-- and the output block is the accumulator after the addition. -/
theorem out_C (c : Dev nD) (i : grid0.Coords) (arg1 : Memref sig .tc .vmem S4000x3 .f32) (harg1 : arg1.IsWhole) (arg2 : Memref sig .tc .vmem S4000x3 .f32) (harg2 : arg2.IsWhole) (arg3 : Memref sig .tc .vmem S4000x1 .i32) (harg3 : arg3.IsWhole) (arg4 : Memref sig .tc .vmem S32x6 .f32) (harg4 : arg4.IsWhole) (arg5 : Memref sig .tc .vmem S32x6 .f32) (harg5 : arg5.IsWhole) (hc0 : ¬cond0_0 i) (hc1 : cond0_1 i)
    (x0 : Vec F S4000x3 .f32) (x1 : Vec F S4000x3 .f32) (x2 : Vec F S4000x1 .i32) (xs0 : Vec F S32x6 .f32) :
    out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S32x6) _ hz]
  simp only [View.readAt_eq_ld, harg1.read_unread, harg2.read_unread, harg3.read_unread, harg4.read_unread, harg5.read_unread,
    View.ld_unit_zero (S := S4000x3) hz, View.ld_unit_zero (S := S4000x1) hz, View.ld_unit_zero (S := S32x6) hz]

end Cert.KernelIdeal.Pieces

end
-- ==== Proof.Spec.lean ====
/-
  The common closed form of the stress output, free of any program.

  For edge e the six virial components are the products r(e,0)f(e,0), r(e,1)f(e,1), r(e,2)f(e,2), r(e,0)f(e,1),
  r(e,1)f(e,2), r(e,2)f(e,0).  Bucket b of component k is the sum of component k over the edges whose destination
  node lies in graph b.  Both programs compute this bucket sum; they differ only in the order of summation, and over
  the extended reals a finite sum does not depend on its order.
-/
import Idealize.ShloMosaic.PureOps.Ideal.Laws
import Idealize.ShloMosaic.Lib.ValueIdx

noncomputable section

namespace Cert.VirialSpec

open Idealize.ShloMosaic Idealize.ShloMosaic.ValueIdx

/-- The destination node of edge e: row 1 of the 2 × E edge table. -/
abbrev dstOf (ei : IVec ⟨2, ![2, 6400000]⟩ 32) (e : Fin 6400000) : BitVec 32 := ei (ix2 (1 : Fin 2) e)

/-- Every destination is the index of a node. -/
def InRange (ei : IVec ⟨2, ![2, 6400000]⟩ 32) : Prop :=
  ∀ e : Fin 6400000, 0 ≤ (dstOf ei e).toInt ∧ (dstOf ei e).toInt < 100000

/-- The six virial components of row e of an n × 3 pair of arrays. -/
def virAt {n : Nat} (r f : (⟨2, ![n, 3]⟩ : Shape).Idx → EReal) (e : Fin n) (k : Fin 6) : EReal :=
  match k with
  | ⟨0, _⟩ => r (ix2 e (0 : Fin 3)) * f (ix2 e (0 : Fin 3))
  | ⟨1, _⟩ => r (ix2 e (1 : Fin 3)) * f (ix2 e (1 : Fin 3))
  | ⟨2, _⟩ => r (ix2 e (2 : Fin 3)) * f (ix2 e (2 : Fin 3))
  | ⟨3, _⟩ => r (ix2 e (0 : Fin 3)) * f (ix2 e (1 : Fin 3))
  | ⟨4, _⟩ => r (ix2 e (1 : Fin 3)) * f (ix2 e (2 : Fin 3))
  | ⟨_ + 5, _⟩ => r (ix2 e (2 : Fin 3)) * f (ix2 e (0 : Fin 3))

/-- The graph of edge e's destination node: the node table read at the destination, the read clamped into the table. -/
def bdst (ei : IVec ⟨2, ![2, 6400000]⟩ 32) (bat : IVec ⟨1, ![100000]⟩ 32) (e : Fin 6400000) : BitVec 32 :=
  bat (ix1 ⟨min (dstOf ei e).toInt.toNat (100000 - 1), by omega⟩)

/-- Bucket b, component k: the sum of component k over the edges whose destination lies in graph b. -/
def bucket (r f : (⟨2, ![6400000, 3]⟩ : Shape).Idx → EReal) (ei : IVec ⟨2, ![2, 6400000]⟩ 32)
    (bat : IVec ⟨1, ![100000]⟩ 32) (b : Fin 32) (k : Fin 6) : EReal :=
  ∑ e : Fin 6400000, if bdst ei bat e = BitVec.ofNat 32 b.val then virAt r f e k else 0

/-- The 1600 tiles of 4000 consecutive edges partition the edges: summing tile by tile is summing over all edges. -/
theorem tiles_sum (g : Fin 6400000 → EReal) :
    (∑ t ∈ Finset.range 1600, if h : t < 1600 then ∑ r : Fin 4000, g ⟨4000 * t + r.val, by omega⟩ else 0)
      = ∑ e : Fin 6400000, g e := by
  have hval : ∀ (t : Fin 1600) (r : Fin 4000),
      ((finProdFinEquiv.trans (finCongr (show 1600 * 4000 = 6400000 by norm_num))) (t, r)).val
        = 4000 * t.val + r.val := by
    intro t r
    show (finProdFinEquiv (t, r)).val = 4000 * t.val + r.val
    rw [finProdFinEquiv_apply_val]
    show r.val + 4000 * t.val = 4000 * t.val + r.val
    omega
  rw [Finset.sum_range,
    ← Equiv.sum_comp (finProdFinEquiv.trans (finCongr (show 1600 * 4000 = 6400000 by norm_num))) g,
    Fintype.sum_prod_type]
  refine Finset.sum_congr rfl fun t _ => ?_
  rw [dif_pos t.isLt]
  refine Finset.sum_congr rfl fun r _ => ?_
  exact congrArg g (Fin.ext (hval t r).symm)

/-- Summing first over the edges that land on a node and then over the nodes of a graph is summing over the edges
    whose destination lies in that graph: each in-range destination is exactly one node. -/
theorem nodes_sum (ei : IVec ⟨2, ![2, 6400000]⟩ 32) (bat : IVec ⟨1, ![100000]⟩ 32) (hr : InRange ei)
    (v : Fin 6400000 → EReal) (b : Fin 32) :
    (∑ n : Fin 100000, if (bat (ix1 n)).toInt = (b.val : ℤ)
        then (∑ e : Fin 6400000, if (dstOf ei e).toInt = (n.val : ℤ) then v e else 0) else 0)
      = ∑ e : Fin 6400000, if bdst ei bat e = BitVec.ofNat 32 b.val then v e else 0 := by
  have word : ∀ w : BitVec 32, w.toInt = (b.val : ℤ) ↔ w = BitVec.ofNat 32 b.val := by
    intro w
    have hb : (BitVec.ofNat 32 b.val).toInt = (b.val : ℤ) := by
      have hlt := b.isLt
      rw [BitVec.toInt_eq_toNat_of_lt (by rw [BitVec.toNat_ofNat]; omega), BitVec.toNat_ofNat]
      omega
    exact ⟨fun h => BitVec.toInt_inj.mp (h.trans hb.symm), fun h => by rw [h, hb]⟩
  have push : ∀ n : Fin 100000,
      (if (bat (ix1 n)).toInt = (b.val : ℤ)
        then (∑ e : Fin 6400000, if (dstOf ei e).toInt = (n.val : ℤ) then v e else 0) else 0)
      = ∑ e : Fin 6400000, if (bat (ix1 n)).toInt = (b.val : ℤ) then
          (if (dstOf ei e).toInt = (n.val : ℤ) then v e else 0) else 0 := by
    intro n
    by_cases h : (bat (ix1 n)).toInt = (b.val : ℤ)
    · simp only [if_pos h]
    · simp only [if_neg h, Finset.sum_const_zero]
  rw [Finset.sum_congr rfl fun n _ => push n, Finset.sum_comm]
  refine Finset.sum_congr rfl fun e _ => ?_
  obtain ⟨h0, h1⟩ := hr e
  have hlt : (dstOf ei e).toInt.toNat < 100000 := by omega
  have hval : (dstOf ei e).toInt = (((⟨(dstOf ei e).toInt.toNat, hlt⟩ : Fin 100000).val : ℕ) : ℤ) := by
    show (dstOf ei e).toInt = (((dstOf ei e).toInt.toNat : ℕ) : ℤ)
    omega
  rw [Finset.sum_eq_single (⟨(dstOf ei e).toInt.toNat, hlt⟩ : Fin 100000)]
  · rw [if_pos hval]
    have hb : bdst ei bat e = bat (ix1 ⟨(dstOf ei e).toInt.toNat, hlt⟩) := by
      unfold bdst
      refine congrArg (fun n : Fin 100000 => bat (ix1 n)) (Fin.ext ?_)
      show min (dstOf ei e).toInt.toNat (100000 - 1) = (dstOf ei e).toInt.toNat
      omega
    rw [hb]
    by_cases h : (bat (ix1 ⟨(dstOf ei e).toInt.toNat, hlt⟩)).toInt = (b.val : ℤ)
    · rw [if_pos h, if_pos ((word _).mp h)]
    · rw [if_neg h, if_neg (fun h' => h ((word _).mpr h'))]
  · intro n _ hne
    have hn : ¬ (dstOf ei e).toInt = ((n.val : ℕ) : ℤ) := by
      intro h
      apply hne
      apply Fin.ext
      show n.val = (dstOf ei e).toInt.toNat
      omega
    rw [if_neg hn, ite_self]
  · intro h
    exact absurd (Finset.mem_univ _) h

end Cert.VirialSpec

end
-- ==== Proof.TileSum.lean ====
/-
  One grid point's arithmetic at the ideal values, read at an entry.  The body multiplies the transposed 4000 × 32
  one-hot matrix of the tile's graph ids by the tile's 4000 × 6 virial block and adds the product to the accumulator.
  A one-hot entry is 1 or 0, and over the extended reals 1·x = x and 0·x = 0 for every x, so entry (b, k) of the
  product is the sum of component k over the tile's rows whose graph id is b.
-/
import proofs.«419347_j18382460027058_2_alg».proof.Proof.Gen.KernelIdeal.Skeleton
import proofs.«419347_j18382460027058_2_alg».proof.Proof.Spec
import Idealize.ShloMosaic.Lib.Pipeline.Value
import Idealize.ShloMosaic.Lib.ValueLayout

noncomputable section

namespace Cert.KernelIdeal.Tile

open Idealize.ShloMosaic Idealize.ShloMosaic.ValueIdx Cert.KernelIdeal Cert.KernelIdeal.Gen

/-! ## The product's operand indices

The product contracts axis 0 of both operands: entry (b, k) pairs row r of the left operand's column b with row r of the
right operand's column k. -/

/-- Left operand, axis 0 (contracted): the contraction position. -/
private theorem lhs_axis0 (i : S32x6.Idx) (q : dot_S4000x32_S4000x6_S32x6_0_0_1_1_n_n.contr.Idx) :
    (dot_S4000x32_S4000x6_S32x6_0_0_1_1_n_n.lhsIdx i q 0).val = (q ⟨0, by decide⟩).val :=
  dot_S4000x32_S4000x6_S32x6_0_0_1_1_n_n.lhsIdx_val_of_single rfl i q

/-- Left operand, axis 1 (free): the result's row. -/
private theorem lhs_axis1 (i : S32x6.Idx) (q : dot_S4000x32_S4000x6_S32x6_0_0_1_1_n_n.contr.Idx) :
    (dot_S4000x32_S4000x6_S32x6_0_0_1_1_n_n.lhsIdx i q 1).val = (i 0).val := by
  unfold DotDims.lhsIdx
  rw [dif_neg (show ¬(1 : Fin S4000x32.rank) ∈ dot_S4000x32_S4000x6_S32x6_0_0_1_1_n_n.lhsBatch by decide),
    dif_pos (show (1 : Fin S4000x32.rank) ∈ dot_S4000x32_S4000x6_S32x6_0_0_1_1_n_n.lhsNonContracting by decide)]
  rfl

/-- Right operand, axis 0 (contracted): the contraction position. -/
private theorem rhs_axis0 (i : S32x6.Idx) (q : dot_S4000x32_S4000x6_S32x6_0_0_1_1_n_n.contr.Idx) :
    (dot_S4000x32_S4000x6_S32x6_0_0_1_1_n_n.rhsIdx i q 0).val = (q ⟨0, by decide⟩).val :=
  dot_S4000x32_S4000x6_S32x6_0_0_1_1_n_n.rhsIdx_val_of_single rfl i q

/-- Right operand, axis 1 (free): the result's column. -/
private theorem rhs_axis1 (i : S32x6.Idx) (q : dot_S4000x32_S4000x6_S32x6_0_0_1_1_n_n.contr.Idx) :
    (dot_S4000x32_S4000x6_S32x6_0_0_1_1_n_n.rhsIdx i q 1).val = (i 1).val := by
  unfold DotDims.rhsIdx
  rw [dif_neg (show ¬(1 : Fin S4000x6.rank) ∈ dot_S4000x32_S4000x6_S32x6_0_0_1_1_n_n.rhsBatch by decide),
    dif_pos (show (1 : Fin S4000x6.rank) ∈ dot_S4000x32_S4000x6_S32x6_0_0_1_1_n_n.rhsNonContracting by decide)]
  rfl

/-- The product into the zero block, at entry (b, k): the sum over the rows r of A(r, b) · B(r, k). -/
private theorem product_apply (A : FVec Ideal S4000x32 .bf16) (B : FVec Ideal S4000x6 .bf16) (b : Fin 32) (k : Fin 6) :
    matmul dot_S4000x32_S4000x6_S32x6_0_0_1_1_n_n none A B (constant (F := Ideal) S32x6 .f32 0x00000000#32) (ix2 b k)
      = ∑ r : Fin 4000, A (ix2 r b) * B (ix2 r k) := by
  refine (Ideal.matmul_constant_zero_apply dot_S4000x32_S4000x6_S32x6_0_0_1_1_n_n none A B (ix2 b k)).trans ?_
  rw [← Equiv.sum_comp (contrEquiv1 dot_S4000x32_S4000x6_S32x6_0_0_1_1_n_n 4000 rfl rfl).symm]
  refine Finset.sum_congr rfl fun r _ => ?_
  have hr := contrEquiv1_symm_val dot_S4000x32_S4000x6_S32x6_0_0_1_1_n_n 4000 rfl rfl r
  have el : dot_S4000x32_S4000x6_S32x6_0_0_1_1_n_n.lhsIdx (ix2 b k)
      ((contrEquiv1 dot_S4000x32_S4000x6_S32x6_0_0_1_1_n_n 4000 rfl rfl).symm r) = ix2 r b :=
    funext fun a => Fin.ext (by
      match a with
      | ⟨0, _⟩ => exact (lhs_axis0 _ _).trans hr
      | ⟨1, _⟩ => exact lhs_axis1 _ _)
  have er : dot_S4000x32_S4000x6_S32x6_0_0_1_1_n_n.rhsIdx (ix2 b k)
      ((contrEquiv1 dot_S4000x32_S4000x6_S32x6_0_0_1_1_n_n 4000 rfl rfl).symm r) = ix2 r k :=
    funext fun a => Fin.ext (by
      match a with
      | ⟨0, _⟩ => exact (rhs_axis0 _ _).trans hr
      | ⟨1, _⟩ => exact rhs_axis1 _ _)
  rw [el, er]

/-! ## The one-hot matrix of the tile's graph ids -/

/-- The graph-id column spread over the 32 lanes reads row r's id in every lane. -/
private theorem ids_apply (x2 : IVec S4000x1 32) (hc : S4000x1.ShapeCasts S4000x1) (hb : S4000x1.Broadcasts S4000x32)
    (r : Fin 4000) (b : Fin 32) :
    broadcastTo S4000x32 (shapeCast S4000x1 x2 hc) hb (ix2 r b) = x2 (ix2 r (0 : Fin 1)) := by
  rw [shapeCast_self]
  exact broadcastTo_apply x2 hb (ix2 r b) (ix2 r (0 : Fin 1)) fun a => by
    match a with
    | ⟨0, _⟩ => rfl
    | ⟨1, _⟩ => rfl

/-- The lane numbers read the lane. -/
private theorem lanes_apply (h : S4000x32.Iotas .tc 32 [1]) (r : Fin 4000) (b : Fin 32) :
    iota .tc S4000x32 32 [1] h (ix2 r b) = BitVec.ofNat 32 b.val :=
  iota_single_apply .tc S4000x32 32 1 h (ix2 r b)

/-- The bit of "x = y", widened to a word and read as a signed integer, is 1 or 0 as an extended real. -/
private theorem indicator_word (x y : BitVec 32) :
    ((((IntOp.cmpi .eq x y).setWidth 32).toInt : ℝ) : EReal) = if x = y then 1 else 0 := by
  by_cases h : x = y
  · have e : IntOp.cmpi .eq x y = 1#1 := by
      show BitVec.ofBool (x == y) = 1#1
      rw [beq_iff_eq.mpr h]
      rfl
    rw [if_pos h, e]
    have : ((1#1 : BitVec 1).setWidth 32).toInt = 1 := by decide
    rw [this]
    norm_num
  · have e : IntOp.cmpi .eq x y = 0#1 := by
      show BitVec.ofBool (x == y) = 0#1
      rw [beq_eq_false_iff_ne.mpr h]
      rfl
    rw [if_neg h, e]
    have : ((0#1 : BitVec 1).setWidth 32).toInt = 0 := by decide
    rw [this]
    norm_num

/-- Entry (r, b) of the one-hot matrix: 1 when row r's graph id is b, else 0. -/
private theorem onehot_apply (x2 : IVec S4000x1 32) (hc : S4000x1.ShapeCasts S4000x1) (hb : S4000x1.Broadcasts S4000x32)
    (hi : S4000x32.Iotas .tc 32 [1]) (hw : 1 < 32) (hf : FTy.bits .bf16 < FTy.bits .f32) (r : Fin 4000) (b : Fin 32) :
    (truncf (F := Ideal) .bf16 (sitofp .f32 (extui 32 (cmpi .eq (broadcastTo S4000x32 (shapeCast S4000x1 x2 hc) hb)
        (iota .tc S4000x32 32 [1] hi)) hw)) hf) (ix2 r b)
      = if x2 (ix2 r (0 : Fin 1)) = BitVec.ofNat 32 b.val then 1 else 0 := by
  show ((((IntOp.cmpi .eq (broadcastTo S4000x32 (shapeCast S4000x1 x2 hc) hb (ix2 r b))
      (iota .tc S4000x32 32 [1] hi (ix2 r b))).setWidth 32).toInt : ℝ) : EReal) = _
  rw [ids_apply x2 hc hb r b, lanes_apply hi r b]
  exact indicator_word _ _

/-! ## The tile's virial block -/

/-- Columns 0, 1, 2 of the block: the first piece, the elementwise product. -/
private theorem block_apply_left (p : FVec Ideal S4000x3 .f32) (q0 q1 q2 : FVec Ideal S4000x1 .f32)
    (h : Shape.Concatenates [S4000x3, S4000x1, S4000x1, S4000x1] S4000x6 1) (r : Fin 4000) (k : Fin 6) (c : Fin 3)
    (hk : k.val = c.val) :
    concatenate S4000x6 1 [⟨S4000x3, p⟩, ⟨S4000x1, q0⟩, ⟨S4000x1, q1⟩, ⟨S4000x1, q2⟩] h (ix2 r k) = p (ix2 r c) :=
  concatenate_apply_piece 1 [⟨S4000x3, p⟩, ⟨S4000x1, q0⟩, ⟨S4000x1, q1⟩, ⟨S4000x1, q2⟩] h (ix2 r k) 0 (by show 0 < 4; omega) S4000x3 p rfl rfl 0 rfl (ix2 r c)
    (fun a => match a with
      | ⟨0, _⟩ => fun _ => rfl
      | ⟨1, _⟩ => fun ne => absurd rfl ne)
    (by show 0 + c.val = k.val; omega)

/-- Column 3 of the block: the one column of the second piece. -/
private theorem block_apply_3 (p : FVec Ideal S4000x3 .f32) (q0 q1 q2 : FVec Ideal S4000x1 .f32)
    (h : Shape.Concatenates [S4000x3, S4000x1, S4000x1, S4000x1] S4000x6 1) (r : Fin 4000) (k : Fin 6)
    (hk : k.val = 3) :
    concatenate S4000x6 1 [⟨S4000x3, p⟩, ⟨S4000x1, q0⟩, ⟨S4000x1, q1⟩, ⟨S4000x1, q2⟩] h (ix2 r k)
      = q0 (ix2 r (0 : Fin 1)) :=
  concatenate_apply_piece 1 [⟨S4000x3, p⟩, ⟨S4000x1, q0⟩, ⟨S4000x1, q1⟩, ⟨S4000x1, q2⟩] h (ix2 r k) 1 (by show 1 < 4; omega) S4000x1 q0 rfl rfl 3 rfl (ix2 r (0 : Fin 1))
    (fun a => match a with
      | ⟨0, _⟩ => fun _ => rfl
      | ⟨1, _⟩ => fun ne => absurd rfl ne)
    (by show 3 + 0 = k.val; omega)

/-- Column 4 of the block: the one column of the third piece. -/
private theorem block_apply_4 (p : FVec Ideal S4000x3 .f32) (q0 q1 q2 : FVec Ideal S4000x1 .f32)
    (h : Shape.Concatenates [S4000x3, S4000x1, S4000x1, S4000x1] S4000x6 1) (r : Fin 4000) (k : Fin 6)
    (hk : k.val = 4) :
    concatenate S4000x6 1 [⟨S4000x3, p⟩, ⟨S4000x1, q0⟩, ⟨S4000x1, q1⟩, ⟨S4000x1, q2⟩] h (ix2 r k)
      = q1 (ix2 r (0 : Fin 1)) :=
  concatenate_apply_piece 1 [⟨S4000x3, p⟩, ⟨S4000x1, q0⟩, ⟨S4000x1, q1⟩, ⟨S4000x1, q2⟩] h (ix2 r k) 2 (by show 2 < 4; omega) S4000x1 q1 rfl rfl 4 rfl (ix2 r (0 : Fin 1))
    (fun a => match a with
      | ⟨0, _⟩ => fun _ => rfl
      | ⟨1, _⟩ => fun ne => absurd rfl ne)
    (by show 4 + 0 = k.val; omega)

/-- Column 5 of the block: the one column of the fourth piece. -/
private theorem block_apply_5 (p : FVec Ideal S4000x3 .f32) (q0 q1 q2 : FVec Ideal S4000x1 .f32)
    (h : Shape.Concatenates [S4000x3, S4000x1, S4000x1, S4000x1] S4000x6 1) (r : Fin 4000) (k : Fin 6)
    (hk : k.val = 5) :
    concatenate S4000x6 1 [⟨S4000x3, p⟩, ⟨S4000x1, q0⟩, ⟨S4000x1, q1⟩, ⟨S4000x1, q2⟩] h (ix2 r k)
      = q2 (ix2 r (0 : Fin 1)) :=
  concatenate_apply_piece 1 [⟨S4000x3, p⟩, ⟨S4000x1, q0⟩, ⟨S4000x1, q1⟩, ⟨S4000x1, q2⟩] h (ix2 r k) 3 (by show 3 < 4; omega) S4000x1 q2 rfl rfl 5 rfl (ix2 r (0 : Fin 1))
    (fun a => match a with
      | ⟨0, _⟩ => fun _ => rfl
      | ⟨1, _⟩ => fun ne => absurd rfl ne)
    (by show 5 + 0 = k.val; omega)

/-- A one-column cut of an n × 3 array times a one-column cut of another, at row r: the product of the two entries. -/
private theorem column_product (x0 x1 : FVec Ideal S4000x3 .f32) (o0 o1 : Nat)
    (h0 : S4000x3.Slices ![0, o0] S4000x1) (h1 : S4000x3.Slices ![0, o1] S4000x1)
    (c0 c1 : Fin 3) (e0 : c0.val = o0) (e1 : c1.val = o1) (r : Fin 4000) :
    mulf (extractStridedSlice S4000x1 ![0, o0] x0 h0) (extractStridedSlice S4000x1 ![0, o1] x1 h1) (ix2 r (0 : Fin 1))
      = x0 (ix2 r c0) * x1 (ix2 r c1) := by
  rw [mulf_apply, slice2_axis1_apply o0 x0 h0 r (0 : Fin 1) c0 (by show c0.val = o0 + 0; omega),
    slice2_axis1_apply o1 x1 h1 r (0 : Fin 1) c1 (by show c1.val = o1 + 0; omega)]

/-- Entry (r, k) of the tile's virial block is component k of row r. -/
private theorem virial_apply (x0 x1 : FVec Ideal S4000x3 .f32)
    (h0 : S4000x3.Slices ![0, 0] S4000x1) (h1 : S4000x3.Slices ![0, 1] S4000x1) (h2 : S4000x3.Slices ![0, 2] S4000x1)
    (hcat : Shape.Concatenates [S4000x3, S4000x1, S4000x1, S4000x1] S4000x6 1)
    (hf : FTy.bits .bf16 < FTy.bits .f32) (r : Fin 4000) (k : Fin 6) :
    (truncf (F := Ideal) .bf16 (concatenate S4000x6 1
      [⟨S4000x3, mulf x0 x1⟩,
       ⟨S4000x1, mulf (extractStridedSlice S4000x1 ![0, 0] x0 h0) (extractStridedSlice S4000x1 ![0, 1] x1 h1)⟩,
       ⟨S4000x1, mulf (extractStridedSlice S4000x1 ![0, 1] x0 h1) (extractStridedSlice S4000x1 ![0, 2] x1 h2)⟩,
       ⟨S4000x1, mulf (extractStridedSlice S4000x1 ![0, 2] x0 h2) (extractStridedSlice S4000x1 ![0, 0] x1 h0)⟩]
      hcat) hf) (ix2 r k) = Cert.VirialSpec.virAt x0 x1 r k := by
  refine (truncf_apply _ hf (ix2 r k)).trans ?_
  match k with
  | ⟨0, _⟩ => exact block_apply_left _ _ _ _ hcat r _ (0 : Fin 3) rfl
  | ⟨1, _⟩ => exact block_apply_left _ _ _ _ hcat r _ (1 : Fin 3) rfl
  | ⟨2, _⟩ => exact block_apply_left _ _ _ _ hcat r _ (2 : Fin 3) rfl
  | ⟨3, _⟩ =>
    exact (block_apply_3 _ _ _ _ hcat r _ rfl).trans (column_product x0 x1 0 1 h0 h1 0 1 rfl rfl r)
  | ⟨4, _⟩ =>
    exact (block_apply_4 _ _ _ _ hcat r _ rfl).trans (column_product x0 x1 1 2 h1 h2 1 2 rfl rfl r)
  | ⟨5, _⟩ =>
    exact (block_apply_5 _ _ _ _ hcat r _ rfl).trans (column_product x0 x1 2 0 h2 h0 2 0 rfl rfl r)

/-! ## The two stored values -/

/-- The reset block is zero everywhere. -/
theorem pay1_apply (b : Fin 32) (k : Fin 6) : (k0_pay1 (F := Ideal)) (ix2 b k) = 0 := by
  unfold k0_pay1
  rw [shapeCast_self]
  exact Ideal.ofBits_zero_f32

/-- The accumulating store's value at (b, k): the accumulator's entry plus the tile's rows of graph b, component k. -/
theorem pay2_apply (x0 x1 : FVec Ideal S4000x3 .f32) (x2 : IVec S4000x1 32) (acc : FVec Ideal S32x6 .f32)
    (b : Fin 32) (k : Fin 6) :
    k0_pay2 (F := Ideal) x0 x1 x2 acc (ix2 b k)
      = acc (ix2 b k) + ∑ r : Fin 4000, if x2 (ix2 r (0 : Fin 1)) = BitVec.ofNat 32 b.val
          then Cert.VirialSpec.virAt x0 x1 r k else 0 := by
  unfold k0_pay2
  dsimp only
  rw [shapeCast_self]
  refine congrArg (acc (ix2 b k) + ·) ?_
  refine (product_apply _ _ b k).trans ?_
  refine Finset.sum_congr rfl fun r _ => ?_
  rw [onehot_apply x2 _ _ _ _ _ r b, virial_apply x0 x1 _ _ _ _ _ r k]
  by_cases h : x2 (ix2 r (0 : Fin 1)) = BitVec.ofNat 32 b.val
  · rw [if_pos h, if_pos h, one_mul]
  · rw [if_neg h, if_neg h, zero_mul]

end Cert.KernelIdeal.Tile

end
-- ==== Proof.HostPrefix.lean ====
/-
  What the kernel's program computes on the host before the launch: the two rows of the edge table as flat
  vectors, and for every edge the graph of its destination node, laid out as an E × 1 column for the launch.
-/
import proofs.«419347_j18382460027058_2_alg».proof.Proof.Gen.KernelIdeal.Frame
import proofs.«419347_j18382460027058_2_alg».proof.Proof.Spec
import Idealize.ShloMosaic.Lib.StableHlo.Predicate
import Idealize.ShloMosaic.Lib.StableHlo.Run
import Idealize.ShloMosaic.Lib.Pipeline.Value

noncomputable section

namespace Cert.KernelIdeal.Prefix

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The source row of the edge table, as the launch finds it. -/
theorem V_main_v1 (c : Dev nD) :
    (V m c main_v1 : IVec S6400000 32)
      = shapeCast S6400000 (extractStridedSlice S1x6400000 ![0, 0] (m ((c : Thread nD τ).loc main_arg3)) slices_S2x6400000_S1x6400000_0_0) shapeCasts_S1x6400000_S6400000 := by
  show StableHlo.after hostOps0 (fun b => m (c, b)) (Proc.devRef .tc main_v1) = _
  after_results
  rfl

/-- The destination row of the edge table, as the launch finds it. -/
theorem V_main_v3 (c : Dev nD) :
    (V m c main_v3 : IVec S6400000 32)
      = shapeCast S6400000 (extractStridedSlice S1x6400000 ![1, 0] (m ((c : Thread nD τ).loc main_arg3)) slices_S2x6400000_S1x6400000_1_0) shapeCasts_S1x6400000_S6400000 := by
  show StableHlo.after hostOps0 (fun b => m (c, b)) (Proc.devRef .tc main_v3) = _
  after_results
  rfl

/-! ## Index forms: a rank-1 index, and row p of a column, written by their coordinates -/

/-- The rank-1 index at position k. -/
private theorem ofFin_eq_ix1 {n : Nat} (k : Fin n) : Shape.Idx.ofFin k = ix1 k :=
  (eq_ix1 _).trans (congrArg ix1 (Shape.Idx.ofFin_zero k))

/-- Row p of an n × 1 column is the index (p, 0). -/
private theorem ixP_eq_ix2 {n : Nat} (p : Fin n) : StableHlo.Predicate.ixP p = ix2 p (0 : Fin 1) := by
  funext a; match a with | ⟨0, _⟩ => rfl | ⟨1, _⟩ => rfl

/-! ## The host stages, each read at one edge -/

/-- Row 1 of the 2 × E edge table, cut out as a 1 × E slab and flattened, holds at e the entry (1, e). -/
private theorem row1_apply (ei : IVec S2x6400000 32) (hs : S2x6400000.Slices ![1, 0] S1x6400000)
    (hc : S1x6400000.ShapeCasts S6400000) (e : Fin 6400000) :
    shapeCast S6400000 (extractStridedSlice S1x6400000 ![1, 0] ei hs) hc (ix1 e) = ei (ix2 (1 : Fin 2) e) := by
  refine (shapeCast_apply _ hc (ix1 e) (ix2 (0 : Fin 1) e) ?_).trans ?_
  · rw [Shape.rowMajor_val_two, Shape.rowMajor_val_one]
    show 0 * 6400000 + e.val = e.val
    omega
  · exact extractStridedSlice_apply ![1, 0] ei hs (ix2 (0 : Fin 1) e) (ix2 (1 : Fin 2) e)
      (fun a => match a with
        | ⟨0, _⟩ => by show 1 = 1 + 0; rfl
        | ⟨1, _⟩ => by show e.val = 0 + e.val; omega)

/-- A vector of length E reshaped to an E × 1 column holds at (e, 0) the vector's entry e. -/
private theorem col_apply {α : Type} (g : S6400000.Idx → α) (hc : S6400000.ShapeCasts S6400000x1) (e : Fin 6400000) :
    shapeCast S6400000x1 g hc (ix2 e (0 : Fin 1)) = g (ix1 e) :=
  shapeCast_apply g hc (ix2 e (0 : Fin 1)) (ix1 e) (by
    rw [Shape.rowMajor_val_one, Shape.rowMajor_val_two]
    show e.val = e.val * 1 + 0
    omega)

/-- A vector of length E broadcast to an E × 1 column holds at (e, 0) the vector's entry e. -/
private theorem bcol_apply {α : Type} (v : S6400000.Idx → α)
    (hb : S6400000.BroadcastsInDim S6400000x1 (![0] : Fin 1 → Fin S6400000x1.rank)) (e : Fin 6400000) :
    broadcastInDim S6400000x1 ![0] hb v (ix2 e (0 : Fin 1)) = v (ix1 e) := by
  rw [← ixP_eq_ix2, ← ofFin_eq_ix1]
  exact StableHlo.Predicate.bcast_col1 hb v e

/-- The table lookup at edge e reads the node table at the start index of row e, taken signed and clamped into the table. -/
private theorem take_apply (bat : IVec S100000 32) (idx : IVec S6400000x1 32) (e : Fin 6400000) :
    Host.gather gather_S100000_S6400000x1_S6400000_n_0_n_n_0_1_1 bat idx (ix1 e)
      = bat (ix1 ⟨min (idx (ix2 e (0 : Fin 1))).toInt.toNat (100000 - 1), by omega⟩) := by
  rw [← ofFin_eq_ix1 e]
  refine (StableHlo.Predicate.gather_take gather_S100000_S6400000x1_S6400000_n_0_n_n_0_1_1 rfl rfl rfl rfl bat idx e
    (by decide)).trans (congrArg bat ?_)
  rw [ofFin_eq_ix1]
  refine congrArg ix1 (Fin.ext ?_)
  show min (idx (StableHlo.Predicate.ixP e)).toInt.toNat (100000 - 1) = min (idx (ix2 e (0 : Fin 1))).toInt.toNat (100000 - 1)
  rw [ixP_eq_ix2]

/-- Wrapping a negative index by the table length leaves a non-negative index as it is: the test "below 0" fails,
    so the select returns its second choice, the index itself. -/
private theorem wrap_apply (d : IVec S6400000 32) (hb : S_.BroadcastsInDim S6400000 (![] : Fin 0 → Fin S6400000.rank))
    (e : Fin 6400000) (h0 : 0 ≤ (d (ix1 e)).toInt) :
    select (cmpi .slt d (broadcastInDim S6400000 ![] hb (constantI S_ 32 0#32)))
        (addi d (broadcastInDim S6400000 ![] hb (constantI S_ 32 100000#32))) d (ix1 e)
      = d (ix1 e) := by
  have hbit : IntOp.cmpi .slt (d (ix1 e)) 0#32 = 0#1 :=
    eq_zero_of_ne_one (fun h1 => by
      have hlt := IntOp.cmpi_slt.1 h1
      have z : (0#32 : BitVec 32).toInt = 0 := by decide
      omega)
  show Scalar.select (IntOp.cmpi .slt (d (ix1 e)) 0#32) _ (d (ix1 e)) = _
  rw [hbit, select_zero]

/-! ## The column handed to the launch, as one function of the edge table and the node table -/

/-- The destination row of the edge table as a flat vector. -/
private def dstVec (ei : IVec S2x6400000 32) : IVec S6400000 32 :=
  shapeCast S6400000 (extractStridedSlice S1x6400000 ![1, 0] ei slices_S2x6400000_S1x6400000_1_0) shapeCasts_S1x6400000_S6400000

/-- Negative indices wrapped by the number of nodes, the others kept. -/
private def wrapVec (d : IVec S6400000 32) : IVec S6400000 32 :=
  select (cmpi .slt d (broadcastInDim S6400000 ![] bcast_S_S6400000 (constantI S_ 32 0#32)))
    (addi d (broadcastInDim S6400000 ![] bcast_S_S6400000 (constantI S_ 32 100000#32))) d

/-- The node table looked up at every edge's (wrapped) destination, as an E × 1 column. -/
private def graphCol (ei : IVec S2x6400000 32) (bat : IVec S100000 32) : IVec S6400000x1 32 :=
  shapeCast S6400000x1
    (Host.gather gather_S100000_S6400000x1_S6400000_n_0_n_n_0_1_1 bat
      (broadcastInDim S6400000x1 ![0] bcast_S6400000_S6400000x1_0 (wrapVec (dstVec ei))))
    shapeCasts_S6400000_S6400000x1

/-- With every destination in range, row e of that column is the graph of edge e's destination node. -/
private theorem graphCol_apply (ei : IVec S2x6400000 32) (bat : IVec S100000 32) (hr : Cert.VirialSpec.InRange ei)
    (e : Fin 6400000) : graphCol ei bat (ix2 e (0 : Fin 1)) = Cert.VirialSpec.bdst ei bat e := by
  have hd : dstVec ei (ix1 e) = ei (ix2 (1 : Fin 2) e) := row1_apply ei _ _ e
  have hidx : broadcastInDim S6400000x1 ![0] bcast_S6400000_S6400000x1_0 (wrapVec (dstVec ei)) (ix2 e (0 : Fin 1))
      = ei (ix2 (1 : Fin 2) e) := by
    rw [bcol_apply]
    unfold wrapVec
    rw [wrap_apply (dstVec ei) bcast_S_S6400000 e (by rw [hd]; exact (hr e).1), hd]
  unfold graphCol
  rw [col_apply, take_apply]
  unfold Cert.VirialSpec.bdst
  refine congrArg bat (congrArg ix1 (Fin.ext ?_))
  show min (broadcastInDim S6400000x1 ![0] bcast_S6400000_S6400000x1_0 (wrapVec (dstVec ei)) (ix2 e (0 : Fin 1))).toInt.toNat (100000 - 1)
      = min (ei (ix2 (1 : Fin 2) e)).toInt.toNat (100000 - 1)
  rw [hidx]

/-- With every destination in range, the column handed to the launch holds at row e the graph of edge e's destination. -/
theorem V_main_v11_apply (c : Dev nD) (hr : Cert.VirialSpec.InRange (m ((c : Thread nD τ).loc main_arg3))) (e : Fin 6400000) :
    (V m c main_v11 : IVec S6400000x1 32) (ix2 e (0 : Fin 1))
      = Cert.VirialSpec.bdst (m ((c : Thread nD τ).loc main_arg3)) (m ((c : Thread nD τ).loc main_arg4)) e := by
  have hw : (V m c main_v11 : IVec S6400000x1 32)
      = graphCol (m ((c : Thread nD τ).loc main_arg3)) (m ((c : Thread nD τ).loc main_arg4)) := by
    show StableHlo.after hostOps0 (fun b => m (c, b)) (Proc.devRef .tc main_v11) = _
    after_results
    rfl
  exact (congrFun hw (ix2 e (0 : Fin 1))).trans
    (graphCol_apply (m ((c : Thread nD τ).loc main_arg3)) (m ((c : Thread nD τ).loc main_arg4)) hr e)

end Cert.KernelIdeal.Prefix

end
-- ==== Proof.KernelValue.lean ====
/-
  The kernel's run at the ideal values, read as values.

  The launch walks 1600 grid points; point t stages rows 4000·t … 4000·t + 3999 of the two edge arrays and of the
  column of destination graphs.  A scratch accumulator is zeroed at the first point and at every point receives the
  tile's contribution: entry (b, k) grows by the sum of virial component k over the tile's edges whose destination
  lies in graph b.  So after point n the accumulator holds the sum of the first n + 1 tiles, and after the last point
  the sum over all edges, which is the bucket sum; the last point copies it to the output.  The host then negates it
  and divides row b by the cell volume of graph b, and computes the force by the two segment sums of the edge forces.
-/
import proofs.«419347_j18382460027058_2_alg».proof.Proof.Pieces
import proofs.«419347_j18382460027058_2_alg».proof.Proof.TileSum
import proofs.«419347_j18382460027058_2_alg».proof.Proof.HostPrefix
import proofs.«419347_j18382460027058_2_alg».proof.Proof.Spec
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.VirialSpec

variable (m : (ℓ : Loc nD τ sig) → Buf (Elt Ideal) ℓ) (ρ : Dev nD → PrngReg)

/-! ## The arrays and the blocks the windows stage -/

/-- The edge vectors, the edge forces, the edge table and the node table, as launched. -/
abbrev rij (c : Dev nD) : FVec Ideal S6400000x3 .f32 := m ((c : Thread nD τ).loc main_arg0)
abbrev fij (c : Dev nD) : FVec Ideal S6400000x3 .f32 := m ((c : Thread nD τ).loc main_arg1)
abbrev eidx (c : Dev nD) : IVec S2x6400000 32 := m ((c : Thread nD τ).loc main_arg3)
abbrev bat (c : Dev nD) : IVec S100000 32 := m ((c : Thread nD τ).loc main_arg4)

/-- The three input blocks of point t. -/
abbrev rblk (c : Dev nD) (t : Fin cfg0.N) : Vec Ideal S4000x3 .f32 := iblk m c 0 t
abbrev fblk (c : Dev nD) (t : Fin cfg0.N) : Vec Ideal S4000x3 .f32 := iblk m c 1 t
abbrev gblk (c : Dev nD) (t : Fin cfg0.N) : Vec Ideal S4000x1 .i32 := iblk m c 2 t

/-- Edge 4000·t + r, the r-th edge of tile t. -/
abbrev edgeOf (t : Fin cfg0.N) (r : Fin 4000) : Fin 6400000 :=
  ⟨4000 * t.val + r.val, by have h1 := t.isLt; have h2 : cfg0.N = 1600 := N_0; have h3 := r.isLt; omega⟩

/-- Every window's block index at point t is (t, 0). -/
theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row r of the first block at point t is row 4000·t + r of the edge vectors. -/
theorem rblk_apply (c : Dev nD) (t : Fin cfg0.N) (r : Fin 4000) (k : Fin 3) :
    rblk m c t (ix2 r k) = rij m c (ix2 (edgeOf t r) k) := by
  unfold rblk iblk
  rw [View.read_apply]
  show V m c main_arg0 _ = rij m c _
  rw [V_main_arg0 m c]
  congr 1
  funext a
  apply Fin.ext
  match a with
  | ⟨0, _⟩ => show win0_0.index t 0 * 4000 + 1 * r.val = 4000 * t.val + r.val; rw [(idx_w0 t).1]; omega
  | ⟨1, _⟩ => show win0_0.index t 1 * 3 + 1 * k.val = k.val; rw [(idx_w0 t).2]; omega

/-- The same for the edge forces. -/
theorem fblk_apply (c : Dev nD) (t : Fin cfg0.N) (r : Fin 4000) (k : Fin 3) :
    fblk m c t (ix2 r k) = fij m c (ix2 (edgeOf t r) k) := by
  unfold fblk iblk
  rw [View.read_apply]
  show V m c main_arg1 _ = fij m c _
  rw [V_main_arg1 m c]
  congr 1
  funext a
  apply Fin.ext
  match a with
  | ⟨0, _⟩ => show win0_1.index t 0 * 4000 + 1 * r.val = 4000 * t.val + r.val; rw [(idx_w1 t).1]; omega
  | ⟨1, _⟩ => show win0_1.index t 1 * 3 + 1 * k.val = k.val; rw [(idx_w1 t).2]; omega

/-- Row r of the third block at point t is the graph of the destination of edge 4000·t + r. -/
theorem gblk_apply (c : Dev nD) (hr : InRange (eidx m c)) (t : Fin cfg0.N) (r : Fin 4000) :
    gblk m c t (ix2 r (0 : Fin 1)) = bdst (eidx m c) (bat m c) (edgeOf t r) := by
  rw [← Cert.KernelIdeal.Prefix.V_main_v11_apply m c hr (edgeOf t r)]
  unfold gblk iblk
  rw [View.read_apply]
  show V m c main_v11 _ = V m c main_v11 _
  congr 1
  funext a
  apply Fin.ext
  match a with
  | ⟨0, _⟩ => show win0_2.index t 0 * 4000 + 1 * r.val = 4000 * t.val + r.val; rw [(idx_w2 t).1]; omega
  | ⟨1, _⟩ => show win0_2.index t 1 * 1 + 1 * (0 : Fin 1).val = (0 : Fin 1).val; rw [(idx_w2 t).2]; rfl

/-! ## The accumulator, point by point -/

/-- After the first point the accumulator is the zero block plus the first tile's contribution. -/
theorem acc_zero (c : Dev nD) (h : 0 < cfg0.N) :
    (outsAt0 m c 0 h).2 = k0_pay2 (rblk m c ⟨0, h⟩) (fblk m c ⟨0, h⟩) (gblk m c ⟨0, h⟩) (k0_pay1 (F := Ideal)) := by
  have h1 : ¬(⟨0, h⟩ : Fin cfg0.N).val % 1600 = 1599 := by dsimp only; omega
  rw [outsAt0_A m c ⟨0, h⟩ rfl h1]
  dsimp only
  exact Cert.KernelIdeal.Pieces.sout_A (F := Ideal) c _ _ _ _ _ _ _ _ _ _ _ _ _ _ _ _

/-- After a later point it is what the point before left plus the tile's contribution. -/
theorem acc_succ (c : Dev nD) (n : ℕ) (h : n + 1 < cfg0.N) :
    (outsAt0 m c (n + 1) h).2
      = k0_pay2 (rblk m c ⟨n + 1, h⟩) (fblk m c ⟨n + 1, h⟩) (gblk m c ⟨n + 1, h⟩) (outsAt0 m c n (Nat.lt_of_succ_lt h)).2 := by
  have hN : cfg0.N = 1600 := N_0
  have h0 : ¬(⟨n + 1, h⟩ : Fin cfg0.N).val % 1600 = 0 := by dsimp only; omega
  by_cases h1 : (⟨n + 1, h⟩ : Fin cfg0.N).val % 1600 = 1599
  · rw [outsAt0_C m c ⟨n + 1, h⟩ h0 h1]
    dsimp only
    exact Cert.KernelIdeal.Pieces.sout_C (F := Ideal) c _ _ _ _ _ _ _ _ _ _ _ _ _ _ _ _ _
  · rw [outsAt0_B m c ⟨n + 1, h⟩ h0 h1]
    dsimp only
    exact Cert.KernelIdeal.Pieces.sout_B (F := Ideal) c _ _ _ _ _ _ _ _ _ _ _ _ _ _ _ _ _

/-- At the last point the output block is the accumulator after that point. -/
theorem out_last (c : Dev nD) (t : Fin cfg0.N) (ht : t.val % 1600 = 1599) :
    (outsAt0 m c t.val t.isLt).1 = (outsAt0 m c t.val t.isLt).2 := by
  have hN : cfg0.N = 1600 := N_0
  have h0 : ¬t.val % 1600 = 0 := by omega
  rw [outsAt0_C m c t h0 ht]
  dsimp only
  exact (Cert.KernelIdeal.Pieces.out_C (F := Ideal) c _ _ _ _ _ _ _ _ _ _ _ _ _ _ _ _ _).trans
    (Cert.KernelIdeal.Pieces.sout_C (F := Ideal) c _ _ _ _ _ _ _ _ _ _ _ _ _ _ _ _ _).symm

/-! ## The accumulator is the sum of the tiles so far -/

/-- Edge e's term of bucket b, component k: its virial component if its destination lies in graph b, else nothing. -/
abbrev term (c : Dev nD) (b : Fin 32) (k : Fin 6) (e : Fin 6400000) : EReal :=
  if bdst (eidx m c) (bat m c) e = BitVec.ofNat 32 b.val then virAt (rij m c) (fij m c) e k else 0

/-- Tile t's contribution to bucket b, component k: the terms of its 4000 edges. -/
def tile (c : Dev nD) (b : Fin 32) (k : Fin 6) (t : ℕ) : EReal :=
  if h : t < 1600 then ∑ r : Fin 4000, term m c b k ⟨4000 * t + r.val, by omega⟩ else 0

/-- The virial components of row r of tile t's blocks are those of edge 4000·t + r. -/
theorem virAt_blk (c : Dev nD) (t : Fin cfg0.N) (r : Fin 4000) (k : Fin 6) :
    virAt (rblk m c t) (fblk m c t) r k = virAt (rij m c) (fij m c) (edgeOf t r) k := by
  match k with
  | ⟨0, _⟩ => show rblk m c t (ix2 r 0) * fblk m c t (ix2 r 0) = rij m c (ix2 (edgeOf t r) 0) * fij m c (ix2 (edgeOf t r) 0)
              rw [rblk_apply, fblk_apply]
  | ⟨1, _⟩ => show rblk m c t (ix2 r 1) * fblk m c t (ix2 r 1) = rij m c (ix2 (edgeOf t r) 1) * fij m c (ix2 (edgeOf t r) 1)
              rw [rblk_apply, fblk_apply]
  | ⟨2, _⟩ => show rblk m c t (ix2 r 2) * fblk m c t (ix2 r 2) = rij m c (ix2 (edgeOf t r) 2) * fij m c (ix2 (edgeOf t r) 2)
              rw [rblk_apply, fblk_apply]
  | ⟨3, _⟩ => show rblk m c t (ix2 r 0) * fblk m c t (ix2 r 1) = rij m c (ix2 (edgeOf t r) 0) * fij m c (ix2 (edgeOf t r) 1)
              rw [rblk_apply, fblk_apply]
  | ⟨4, _⟩ => show rblk m c t (ix2 r 1) * fblk m c t (ix2 r 2) = rij m c (ix2 (edgeOf t r) 1) * fij m c (ix2 (edgeOf t r) 2)
              rw [rblk_apply, fblk_apply]
  | ⟨_ + 5, _⟩ => show rblk m c t (ix2 r 2) * fblk m c t (ix2 r 0) = rij m c (ix2 (edgeOf t r) 2) * fij m c (ix2 (edgeOf t r) 0)
                  rw [rblk_apply, fblk_apply]

/-- What point t's arithmetic adds at (b, k) is tile t's contribution. -/
theorem tile_eq (c : Dev nD) (hr : InRange (eidx m c)) (t : Fin cfg0.N) (b : Fin 32) (k : Fin 6) :
    (∑ r : Fin 4000, if gblk m c t (ix2 r (0 : Fin 1)) = BitVec.ofNat 32 b.val
        then virAt (rblk m c t) (fblk m c t) r k else 0) = tile m c b k t.val := by
  have hN : cfg0.N = 1600 := N_0
  have ht : t.val < 1600 := by have := t.isLt; omega
  unfold tile
  rw [dif_pos ht]
  refine Finset.sum_congr rfl fun r _ => ?_
  rw [gblk_apply m c hr t r, virAt_blk m c t r k]

/-- After point n the accumulator's entry (b, k) is the sum of the first n + 1 tiles' contributions. -/
theorem acc_eq (c : Dev nD) (hr : InRange (eidx m c)) :
    ∀ (n : ℕ) (h : n < cfg0.N) (b : Fin 32) (k : Fin 6),
      (outsAt0 m c n h).2 (ix2 b k) = ∑ t ∈ Finset.range (n + 1), tile m c b k t
  | 0, h, b, k => by
    rw [acc_zero m c h]
    refine (Cert.KernelIdeal.Tile.pay2_apply (rblk m c ⟨0, h⟩) (fblk m c ⟨0, h⟩) (gblk m c ⟨0, h⟩) (k0_pay1 (F := Ideal)) b k).trans ?_
    rw [Cert.KernelIdeal.Tile.pay1_apply, zero_add, Finset.sum_range_one]
    exact tile_eq m c hr ⟨0, h⟩ b k
  | n + 1, h, b, k => by
    rw [acc_succ m c n h]
    refine (Cert.KernelIdeal.Tile.pay2_apply (rblk m c ⟨n + 1, h⟩) (fblk m c ⟨n + 1, h⟩) (gblk m c ⟨n + 1, h⟩)
      (outsAt0 m c n (Nat.lt_of_succ_lt h)).2 b k).trans ?_
    rw [acc_eq c hr n (Nat.lt_of_succ_lt h) b k, Finset.sum_range_succ _ (n + 1)]
    exact congrArg _ (tile_eq m c hr ⟨n + 1, h⟩ b k)

/-- After the last point the accumulator's entry (b, k) is the bucket sum. -/
theorem acc_last (c : Dev nD) (hr : InRange (eidx m c)) (t : Fin cfg0.N) (ht : t.val % 1600 = 1599) (b : Fin 32) (k : Fin 6) :
    (outsAt0 m c t.val t.isLt).2 (ix2 b k) = bucket (rij m c) (fij m c) (eidx m c) (bat m c) b k := by
  have hN : cfg0.N = 1600 := N_0
  have hv : t.val + 1 = 1600 := by have := t.isLt; omega
  rw [acc_eq m c hr t.val t.isLt b k, hv]
  exact tiles_sum (term m c b k)

/-! ## The launch's result array -/

/-- The output window's block index is (0, 0) at every point. -/
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The bucket sums, as contents of the launch's 32 × 6 result array. -/
abbrev vsum (c : Dev nD) : Buf (Elt Ideal) ((c : Thread nD τ).loc main_v12) :=
  fun i => bucket (rij m c) (fij m c) (eidx m c) (bat m c) (i 0) (i 1)

/-- At the last point the output block holds the bucket sums. -/
theorem last_block (c : Dev nD) (hr : InRange (eidx m c)) (t : Fin cfg0.N) (ht : t.val % 1600 = 1599) :
    (outsAt0 m c t.val t.isLt).1 = vsum m c := by
  rw [out_last m c t ht]
  funext i
  obtain ⟨b, k, rfl⟩ : ∃ (b : Fin 32) (k : Fin 6), i = ix2 b k := ⟨i 0, i 1, eq_ix2 i⟩
  exact acc_last m c hr t ht b k

/-- The one write-back writes them: the window's block is the whole array, read through zero offsets. -/
theorem flushed_eq (c : Dev nD) (hr : InRange (eidx m c)) (t : Fin cfg0.N) (hf : (cfg0.win 3).flush t = true) :
    (dats m 0 c).flushed 3 t = ((cfg0.win 3).blk t).view.read (Elt Ideal) (vsum m c) := by
  have ht : t.val % 1600 = 1599 := (flush0_3 t).mp hf
  show (cfg0.win 3).cut (grid0.coords t) ((dats m 0 c).after 3 t) = _
  rw [after0_3, last_block m c hr t ht]
  have hz' : (fun a => win0_3.index t a * main_v12.ty.shape.size a) = fun _ => 0 := funext fun a => by
    match a with
    | ⟨0, _⟩ => show win0_3.index t 0 * 32 = 0; rw [(idx_w3 t).1]
    | ⟨1, _⟩ => show win0_3.index t 1 * 6 = 0; rw [(idx_w3 t).2]
  exact (Memref.read_access_unit_zero (Elt Ideal) main_v12 hz' (fun a => by rw [congrFun hz' a]; simp) (vsum m c)).symm

/-- The last grid point. -/
abbrev tLast : Fin cfg0.N := ⟨1599, by rw [show cfg0.N = 1600 from N_0]; decide⟩

/-- So the result array ends holding the bucket sums: the last point's block covers it. -/
theorem final_v12 (c : Dev nD) (hr : InRange (eidx m c)) : (dats m 0 c).arrAt 3 cfg0.N = vsum m c :=
  (dats m 0 c).arrAt_eq_of_cover 3 (vsum m c) (flushed_eq m c hr) fun i =>
    ⟨tLast, (flush0_3 tLast).mpr rfl, by
      show i ∈ ((View.whole main_v12).slice (win0_3.rect tLast)).set
      rw [View.set_slice_whole, Rect.mem_set_unit]
      intro a
      have h0 : (i 0 : Nat) < 32 := (i 0).isLt
      have h1 : (i 1 : Nat) < 6 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 32 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 6 from by decide +kernel]; omega⟩

/-! ## The two results -/

/-- The stress from the bucket sums: negated, and row b divided by the cell volume of graph b. -/
def stressOf (s : FVec Ideal S32x6 .f32) (cv : FVec Ideal S32 .f32) : FVec Ideal S32x6 .f32 :=
  Host.divf (F := Ideal) (Host.negf (F := Ideal) s)
    (broadcastInDim S32x6 ![0, 1] bcast_S32x1_S32x6_0_1 (broadcastInDim S32x1 ![0] bcast_S32_S32x1_0 cv))

/-- What the host leaves in the stress result after the launch. -/
theorem tail_v16 (c : Dev nD) (hr : InRange (eidx m c)) :
    Pipeline.afterTail₀ cfgs (dats m) 0 (V0 m) [hostOps1] c main_v16
      = stressOf (vsum m c) (m ((c : Thread nD τ).loc main_arg2)) := by
  unfold Pipeline.afterTail₀
  show StableHlo.after hostOps1 _ (Proc.devRef .tc main_v16) = _
  after_results
  rw [show Pipeline.withArrays (cfgs 0).spec c (V0 m c) (fun w => (dats m 0 c).arrAt w (cfgs 0).N) (Proc.tc.devRef main_v12)
        = vsum m c from (Pipeline.withArrays_arr spec0 launch0.win.arr_inj c _ _ 3).trans (final_v12 m c hr),
    Pipeline.withArrays_of_ne _ c (V0 m c) _ main_arg2 (by exact (by decide : ∀ w, Pipeline.arrRef spec0 w ≠ main_arg2))]
  rw [show V0 m c (Proc.devRef .tc main_arg2) = m ((c : Thread nD τ).loc main_arg2) from V_main_arg2 m c]
  rfl

/-- The force: the segment sum of the edge forces over the source nodes minus the one over the destination nodes. -/
def forceOf (f : FVec Ideal S6400000x3 .f32) (ei : IVec S2x6400000 32) : FVec Ideal S100000x3 .f32 :=
  subf
    (Host.scatterAdd (F := Ideal) scatter_S100000x3_S6400000x1_S6400000x3_1_0_0_1
      (broadcastInDim S100000x3 ![] bcast_S_S100000x3 (constant (F := Ideal) S_ .f32 0x00000000#32))
      (broadcastInDim S6400000x1 ![0] bcast_S6400000_S6400000x1_0
        (shapeCast S6400000 (extractStridedSlice S1x6400000 ![0, 0] ei slices_S2x6400000_S1x6400000_0_0) shapeCasts_S1x6400000_S6400000))
      f)
    (Host.scatterAdd (F := Ideal) scatter_S100000x3_S6400000x1_S6400000x3_1_0_0_1
      (broadcastInDim S100000x3 ![] bcast_S_S100000x3 (constant (F := Ideal) S_ .f32 0x00000000#32))
      (broadcastInDim S6400000x1 ![0] bcast_S6400000_S6400000x1_0
        (shapeCast S6400000 (extractStridedSlice S1x6400000 ![1, 0] ei slices_S2x6400000_S1x6400000_1_0) shapeCasts_S1x6400000_S6400000))
      f)

/-- What the host leaves in the force result after the launch: the launch touches none of its operands. -/
theorem tail_v23 (c : Dev nD) :
    Pipeline.afterTail₀ cfgs (dats m) 0 (V0 m) [hostOps1] c main_v23 = forceOf (fij m c) (eidx m c) := by
  unfold Pipeline.afterTail₀
  show StableHlo.after hostOps1 _ (Proc.devRef .tc main_v23) = _
  after_results
  rw [Pipeline.withArrays_of_ne _ c (V0 m c) _ main_v1 (by exact (by decide : ∀ w, Pipeline.arrRef spec0 w ≠ main_v1)),
    Pipeline.withArrays_of_ne _ c (V0 m c) _ main_v3 (by exact (by decide : ∀ w, Pipeline.arrRef spec0 w ≠ main_v3)),
    show Pipeline.withArrays (cfgs 0).spec c (V0 m c) (fun w => (dats m 0 c).arrAt w (cfgs 0).N) (Proc.tc.devRef main_arg1)
        = fij m c from (Pipeline.withArrays_arr spec0 launch0.win.arr_inj c _ _ 1).trans
          (((dats m 0 c).arrAt_in 1 rfl _).trans ((A_eq m c 1).trans (V_main_arg1 m c)))]
  rw [show V0 m c (Proc.devRef .tc main_v1) = _ from Cert.KernelIdeal.Prefix.V_main_v1 m c,
    show V0 m c (Proc.devRef .tc main_v3) = _ from Cert.KernelIdeal.Prefix.V_main_v3 m c]
  rfl

/-- The run, read: with every destination a node, every weakly fair execution ends with the force result at the two
    segment sums' difference, the stress result at the bucket sums negated and divided by the cell volumes, and the
    five arguments as launched. -/
theorem run (hr : ∀ c : Dev nD, InRange (eidx m c)) :
    θ_run defs (onTc (τ := τ) (main (F := Ideal))) ⟨m, fun _ => 0, ρ⟩ fun r => ∀ c : Dev nD,
      r.2.mem ((c.tc : Thread nD τ).loc main_v23) = forceOf (fij m c) (eidx m c)
      ∧ r.2.mem ((c.tc : Thread nD τ).loc main_v16) = stressOf (vsum m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v23 (Pipeline.mem_restRefs_of main_v23 (by decide) (by decide))).trans (tail_v23 m c),
      ((h c).2 main_v16 (Pipeline.mem_restRefs_of main_v16 (by decide) (by decide))).trans (tail_v16 m c (hr c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibRowScatter.lean ====
/-
  A general lemma, free of any program.

  A scatter-add of E rows of width C into an N × C array, the row index of update row e read from an E × 1 column
  (what a segment sum over the leading axis lowers to), read at the entry (n, k) at the ideal values: the operand's
  entry plus the sum, over the update rows whose index is n, of their entry k.  An update row whose index is negative
  or at least N lands nowhere and contributes to no entry.
-/
import Idealize.ShloMosaic.PureOps.Ideal.Laws
import Idealize.ShloMosaic.Lib.ValueIdx

noncomputable section

namespace RowScatter

open Idealize.ShloMosaic Idealize.ShloMosaic.ValueIdx

/-- An update index lands at the operand index i exactly when, on every axis, the window's start plus the window
    coordinate is i's coordinate: the range test of the landing index is then i's own bound. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split at h
    · next hr =>
      have hf := Option.some.inj h
      have ha : ((d.start j idx a + (d.window j a : ℤ)).toNat) = (i a).val := congrArg Fin.val (congrFun hf a)
      have := (hr a).1
      omega
    · exact absurd h (by simp)
  · intro h
    have hr : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hr]
    congr 1
    funext a
    apply Fin.ext
    show (d.start j idx a + (d.window j a : ℤ)).toNat = (i a).val
    rw [h a]
    exact Int.toNat_natCast _

/-- With the row axis inserted and start-indexed and the column axis the window: update entry (e, k') starts at row
    index e's signed value on axis 0 and at 0 on axis 1, and its window coordinate is 0 on axis 0 and k' on axis 1. -/
private theorem start_window {N C E w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (k' : Fin C) :
    d.start (ix2 e k') idx 0 = (idx (ix2 e (0 : Fin 1))).toInt ∧ d.start (ix2 e k') idx 1 = 0 ∧
      d.window (ix2 e k') 0 = 0 ∧ d.window (ix2 e k') 1 = k'.val := by
  obtain ⟨uw, iw, sd, iv, wf⟩ := d
  dsimp only at huw hiw hsd hiv
  subst huw hiw hsd hiv
  refine ⟨?_, ?_, ?_, ?_⟩
  · -- axis 0 is the one start-indexed axis; the index read is (e, 0): e from the update's scatter axis, 0 the component
    unfold ScatterDims.start
    rw [dif_pos (List.mem_singleton.mpr rfl)]
    congr 2
    funext b
    match b with
    | ⟨0, _⟩ => rfl
    | ⟨1, _⟩ => rfl
  · unfold ScatterDims.start
    exact dif_neg (show (1 : Fin 2) ∉ ([0] : List (Fin 2)) by decide)
  · unfold ScatterDims.window
    exact dif_neg (show (0 : Fin 2) ∉ (List.finRange 2).filter (fun x => x ∉ ([0] : List (Fin 2))) by decide)
  · unfold ScatterDims.window
    exact (dif_pos (show (1 : Fin 2) ∈ (List.finRange 2).filter (fun x => x ∉ ([0] : List (Fin 2))) by decide)).trans rfl

/-- The row scatter-add at the entry (n, k). -/
theorem scatterAdd_rows_apply {N C E w : Nat} {φ : FTy}
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![E, 1]⟩ w) (upd : FVec Ideal ⟨2, ![E, C]⟩ φ)
    (n : Fin N) (k : Fin C) :
    Host.scatterAdd d x idx upd (ix2 n k)
      = x (ix2 n k) + ∑ e : Fin E, if (idx (ix2 e (0 : Fin 1))).toInt = (n.val : ℤ) then upd (ix2 e k) else 0 := by
  classical
  -- update entry (e, k') lands at (n, k) exactly when row index e is n and k' is k
  have hkey : ∀ (e : Fin E) (k' : Fin C), d.resultIdx? (ix2 e k') idx = some (ix2 n k) ↔
      ((idx (ix2 e (0 : Fin 1))).toInt = (n.val : ℤ) ∧ k' = k) := by
    intro e k'
    obtain ⟨h0, h1, h2, h3⟩ := start_window d huw hiw hsd hiv idx e k'
    have e0 : (((ix2 n k : (⟨2, ![N, C]⟩ : Shape).Idx) 0).val : ℤ) = (n.val : ℤ) := rfl
    have e1 : (((ix2 n k : (⟨2, ![N, C]⟩ : Shape).Idx) 1).val : ℤ) = (k.val : ℤ) := rfl
    rw [resultIdx?_eq_some_iff]
    constructor
    · intro h
      have a0 := h 0
      have a1 := h 1
      rw [h0, h2, e0] at a0
      rw [h1, h3, e1] at a1
      exact ⟨by omega, Fin.ext (by omega)⟩
    · rintro ⟨ha, rfl⟩
      have p0 : d.start (ix2 e k') idx 0 + ((d.window (ix2 e k') 0 : ℕ) : ℤ)
          = (((ix2 n k' : (⟨2, ![N, C]⟩ : Shape).Idx) 0).val : ℤ) := by rw [h0, h2, e0]; omega
      have p1 : d.start (ix2 e k') idx 1 + ((d.window (ix2 e k') 1 : ℕ) : ℤ)
          = (((ix2 n k' : (⟨2, ![N, C]⟩ : Shape).Idx) 1).val : ℤ) := by rw [h1, h3, e1]; omega
      intro a
      match a with
      | ⟨0, _⟩ => exact p0
      | ⟨1, _⟩ => exact p1
  show x (ix2 n k) + ∑ j ∈ Finset.univ.filter (fun j => d.resultIdx? j idx = some (ix2 n k)), upd j = _
  congr 1
  -- the sum over the landing update entries, as a sum over all (e, k'), then row by row
  rw [Finset.sum_filter, sum_idx2]
  refine Finset.sum_congr rfl (fun e _ => ?_)
  by_cases he : (idx (ix2 e (0 : Fin 1))).toInt = (n.val : ℤ)
  · rw [if_pos he, Finset.sum_eq_single k]
    · rw [if_pos ((hkey e k).2 ⟨he, rfl⟩)]
    · intro k' _ hk'
      rw [if_neg (fun h => hk' ((hkey e k').1 h).2)]
    · intro h
      exact absurd (Finset.mem_univ k) h
  · rw [if_neg he]
    exact Finset.sum_eq_zero (fun k' _ => if_neg (fun h => he ((hkey e k').1 h).1))

end RowScatter

end
-- ==== Proof.RefValue.lean ====
/-
  The reference's bucket sums at the ideal values.  The reference scatters the per-edge virial rows to their
  destination nodes and then the node rows to their graphs; with every destination a node, entry (b, k) of the
  result is the sum of component k over the edges whose destination lies in graph b.
-/
import proofs.«419347_j18382460027058_2_alg».proof.Proof.Gen.ReferenceIdeal.Read
import proofs.«419347_j18382460027058_2_alg».proof.Proof.Spec
import proofs.«419347_j18382460027058_2_alg».proof.Proof.LibRowScatter

noncomputable section

namespace Cert.ReferenceIdeal.RefValue

open Idealize.ShloMosaic Idealize.ShloMosaic.ValueIdx Cert.ReferenceIdeal Cert.ReferenceIdeal.Read

/-- The graph accumulator starts at zero. -/
private theorem v34_zero (b : Fin 32) (k : Fin 6) : val_main_v34 (F := Ideal) (ix2 b k) = 0 := by
  rw [val_main_v34_apply, val_main_cst_2_apply]
  exact Ideal.ofBits_zero_f32

/-- The node accumulator starts at zero. -/
private theorem v31_zero (n : Fin 100000) (k : Fin 6) : val_main_v31 (F := Ideal) (ix2 n k) = 0 := by
  rw [val_main_v31_apply, val_main_cst_1_apply]
  exact Ideal.ofBits_zero_f32

/-- The node table as a column: row n is the table at n. -/
private theorem v35_apply (x4 : IVec S100000 32) (n : Fin 100000) :
    val_main_v35 (F := Ideal) x4 (ix2 n (0 : Fin 1)) = x4 (ix1 n) := by
  rw [val_main_v35_apply]
  congr 1
  funext a
  match a with
  | ⟨0, _⟩ => rfl

/-- The destination row of the edge table as a column: row e is edge e's destination. -/
private theorem v32_apply (x3 : IVec S2x6400000 32) (e : Fin 6400000) :
    val_main_v32 (F := Ideal) x3 (ix2 e (0 : Fin 1)) = Cert.VirialSpec.dstOf x3 e := by
  rw [val_main_v32_apply, val_main_v3_apply, val_main_v2_apply]
  show x3 _ = x3 (ix2 (1 : Fin 2) e)
  congr 1
  funext a
  match a with
  | ⟨0, _⟩ => rfl
  | ⟨1, _⟩ => exact Fin.ext (Nat.mod_eq_of_lt e.isLt)

section Cat
variable {α : Type} (y0 : S6400000x3.Idx → α) (y1 y2 y3 : S6400000x1.Idx → α)
  (h : Shape.Concatenates [S6400000x3, S6400000x1, S6400000x1, S6400000x1] S6400000x6 1)

/-- Columns 0, 1, 2 of the joined array are the first piece's. -/
private theorem cat_p0 (e : Fin 6400000) (c : Fin 3) (k : Fin 6) (hk : k.val = c.val) :
    concatenate S6400000x6 1 [⟨S6400000x3, y0⟩, ⟨S6400000x1, y1⟩, ⟨S6400000x1, y2⟩, ⟨S6400000x1, y3⟩] h (ix2 e k)
      = y0 (ix2 e c) := by
  refine concatenate_apply_piece (t := S6400000x6) 1 [⟨S6400000x3, y0⟩, ⟨S6400000x1, y1⟩, ⟨S6400000x1, y2⟩, ⟨S6400000x1, y3⟩] h (ix2 e k) 0 (by show (0 : Nat) < 4; omega) S6400000x3 y0 rfl rfl 0 rfl
    (ix2 e c) ?_ ?_
  · intro b hb
    match b with
    | ⟨0, _⟩ => rfl
    | ⟨1, _⟩ => exact absurd rfl hb
  · show 0 + c.val = k.val
    omega

/-- Column 3 is the second piece's one column. -/
private theorem cat_p1 (e : Fin 6400000) :
    concatenate S6400000x6 1 [⟨S6400000x3, y0⟩, ⟨S6400000x1, y1⟩, ⟨S6400000x1, y2⟩, ⟨S6400000x1, y3⟩] h (ix2 e (3 : Fin 6))
      = y1 (ix2 e (0 : Fin 1)) := by
  refine concatenate_apply_piece (t := S6400000x6) 1 [⟨S6400000x3, y0⟩, ⟨S6400000x1, y1⟩, ⟨S6400000x1, y2⟩, ⟨S6400000x1, y3⟩] h (ix2 e (3 : Fin 6)) 1 (by show (1 : Nat) < 4; omega) S6400000x1 y1 rfl rfl 3 rfl
    (ix2 e (0 : Fin 1)) ?_ ?_
  · intro b hb
    match b with
    | ⟨0, _⟩ => rfl
    | ⟨1, _⟩ => exact absurd rfl hb
  · rfl

/-- Column 4 is the third piece's one column. -/
private theorem cat_p2 (e : Fin 6400000) :
    concatenate S6400000x6 1 [⟨S6400000x3, y0⟩, ⟨S6400000x1, y1⟩, ⟨S6400000x1, y2⟩, ⟨S6400000x1, y3⟩] h (ix2 e (4 : Fin 6))
      = y2 (ix2 e (0 : Fin 1)) := by
  refine concatenate_apply_piece (t := S6400000x6) 1 [⟨S6400000x3, y0⟩, ⟨S6400000x1, y1⟩, ⟨S6400000x1, y2⟩, ⟨S6400000x1, y3⟩] h (ix2 e (4 : Fin 6)) 2 (by show (2 : Nat) < 4; omega) S6400000x1 y2 rfl rfl 4 rfl
    (ix2 e (0 : Fin 1)) ?_ ?_
  · intro b hb
    match b with
    | ⟨0, _⟩ => rfl
    | ⟨1, _⟩ => exact absurd rfl hb
  · rfl

/-- Column 5 is the fourth piece's one column. -/
private theorem cat_p3 (e : Fin 6400000) :
    concatenate S6400000x6 1 [⟨S6400000x3, y0⟩, ⟨S6400000x1, y1⟩, ⟨S6400000x1, y2⟩, ⟨S6400000x1, y3⟩] h (ix2 e (5 : Fin 6))
      = y3 (ix2 e (0 : Fin 1)) := by
  refine concatenate_apply_piece (t := S6400000x6) 1 [⟨S6400000x3, y0⟩, ⟨S6400000x1, y1⟩, ⟨S6400000x1, y2⟩, ⟨S6400000x1, y3⟩] h (ix2 e (5 : Fin 6)) 3 (by show (3 : Nat) < 4; omega) S6400000x1 y3 rfl rfl 5 rfl
    (ix2 e (0 : Fin 1)) ?_ ?_
  · intro b hb
    match b with
    | ⟨0, _⟩ => rfl
    | ⟨1, _⟩ => exact absurd rfl hb
  · rfl

end Cat

/-- The column r(·,0) f(·,1). -/
private theorem v27_apply (x0 x1 : FVec Ideal S6400000x3 .f32) (e : Fin 6400000) :
    val_main_v27 (F := Ideal) x0 x1 (ix2 e (0 : Fin 1)) = x0 (ix2 e (0 : Fin 3)) * x1 (ix2 e (1 : Fin 3)) := by
  have h0 : idx_main_v12 (idx_main_v13 (idx_main_v27 (ix2 e (0 : Fin 1)))) = ix2 e (0 : Fin 3) := by
    funext a
    match a with
    | ⟨0, _⟩ => exact Fin.ext (Nat.div_one _)
    | ⟨1, _⟩ => rfl
  have h1 : idx_main_v14 (idx_main_v15 (idx_main_v27 (ix2 e (0 : Fin 1)))) = ix2 e (1 : Fin 3) := by
    funext a
    match a with
    | ⟨0, _⟩ => exact Fin.ext (Nat.div_one _)
    | ⟨1, _⟩ => rfl
  rw [val_main_v27_apply, val_main_v16_apply, val_main_v13_apply, val_main_v12_apply, val_main_v15_apply,
    val_main_v14_apply]
  exact congrArg₂ (· * ·) (congrArg x0 h0) (congrArg x1 h1)

/-- The column r(·,1) f(·,2). -/
private theorem v28_apply (x0 x1 : FVec Ideal S6400000x3 .f32) (e : Fin 6400000) :
    val_main_v28 (F := Ideal) x0 x1 (ix2 e (0 : Fin 1)) = x0 (ix2 e (1 : Fin 3)) * x1 (ix2 e (2 : Fin 3)) := by
  have h0 : idx_main_v17 (idx_main_v18 (idx_main_v28 (ix2 e (0 : Fin 1)))) = ix2 e (1 : Fin 3) := by
    funext a
    match a with
    | ⟨0, _⟩ => exact Fin.ext (Nat.div_one _)
    | ⟨1, _⟩ => rfl
  have h1 : idx_main_v19 (idx_main_v20 (idx_main_v28 (ix2 e (0 : Fin 1)))) = ix2 e (2 : Fin 3) := by
    funext a
    match a with
    | ⟨0, _⟩ => exact Fin.ext (Nat.div_one _)
    | ⟨1, _⟩ => rfl
  rw [val_main_v28_apply, val_main_v21_apply, val_main_v18_apply, val_main_v17_apply, val_main_v20_apply,
    val_main_v19_apply]
  exact congrArg₂ (· * ·) (congrArg x0 h0) (congrArg x1 h1)

/-- The column r(·,2) f(·,0). -/
private theorem v29_apply (x0 x1 : FVec Ideal S6400000x3 .f32) (e : Fin 6400000) :
    val_main_v29 (F := Ideal) x0 x1 (ix2 e (0 : Fin 1)) = x0 (ix2 e (2 : Fin 3)) * x1 (ix2 e (0 : Fin 3)) := by
  have h0 : idx_main_v22 (idx_main_v23 (idx_main_v29 (ix2 e (0 : Fin 1)))) = ix2 e (2 : Fin 3) := by
    funext a
    match a with
    | ⟨0, _⟩ => exact Fin.ext (Nat.div_one _)
    | ⟨1, _⟩ => rfl
  have h1 : idx_main_v24 (idx_main_v25 (idx_main_v29 (ix2 e (0 : Fin 1)))) = ix2 e (0 : Fin 3) := by
    funext a
    match a with
    | ⟨0, _⟩ => exact Fin.ext (Nat.div_one _)
    | ⟨1, _⟩ => rfl
  rw [val_main_v29_apply, val_main_v26_apply, val_main_v23_apply, val_main_v22_apply, val_main_v25_apply,
    val_main_v24_apply]
  exact congrArg₂ (· * ·) (congrArg x0 h0) (congrArg x1 h1)

/-- The six-column virial block at (e, k): the three diagonal products, then the three off-diagonal ones. -/
private theorem v30_apply (x0 x1 : FVec Ideal S6400000x3 .f32) (e : Fin 6400000) (k : Fin 6) :
    val_main_v30 (F := Ideal) x0 x1 (ix2 e k) = Cert.VirialSpec.virAt x0 x1 e k := by
  unfold val_main_v30
  match k with
  | ⟨0, _⟩ => exact cat_p0 _ _ _ _ _ e (0 : Fin 3) _ rfl
  | ⟨1, _⟩ => exact cat_p0 _ _ _ _ _ e (1 : Fin 3) _ rfl
  | ⟨2, _⟩ => exact cat_p0 _ _ _ _ _ e (2 : Fin 3) _ rfl
  | ⟨3, _⟩ => exact (cat_p1 _ _ _ _ _ e).trans (v27_apply x0 x1 e)
  | ⟨4, _⟩ => exact (cat_p2 _ _ _ _ _ e).trans (v28_apply x0 x1 e)
  | ⟨5, _⟩ => exact (cat_p3 _ _ _ _ _ e).trans (v29_apply x0 x1 e)
  | ⟨n + 6, hn⟩ => exact absurd hn (by omega)

/-- The edge-to-node scatter at (n, k): the sum of component k over the edges whose destination is n. -/
private theorem v33_apply (x0 x1 : FVec Ideal S6400000x3 .f32) (x3 : IVec S2x6400000 32) (n : Fin 100000) (k : Fin 6) :
    val_main_v33 (F := Ideal) x0 x1 x3 (ix2 n k)
      = ∑ e : Fin 6400000, if (Cert.VirialSpec.dstOf x3 e).toInt = (n.val : ℤ) then Cert.VirialSpec.virAt x0 x1 e k else 0 := by
  have h := RowScatter.scatterAdd_rows_apply (φ := .f32) (w := 32) scatter_S100000x6_S6400000x1_S6400000x6_1_0_0_1
    rfl rfl rfl rfl (val_main_v31 (F := Ideal)) (val_main_v32 (F := Ideal) x3) (val_main_v30 (F := Ideal) x0 x1) n k
  unfold val_main_v33
  rw [h, v31_zero, zero_add]
  refine Finset.sum_congr rfl (fun e _ => ?_)
  rw [v32_apply, v30_apply]

/-- The node-to-graph scatter of the edge-to-node scatter of the virial rows, at (b, k), is the bucket sum. -/
theorem sout_apply (x0 x1 : FVec Ideal S6400000x3 .f32) (x3 : IVec S2x6400000 32) (x4 : IVec S100000 32)
    (hr : Cert.VirialSpec.InRange x3) (b : Fin 32) (k : Fin 6) :
    val_main_v36 (F := Ideal) x0 x1 x3 x4 (ix2 b k) = Cert.VirialSpec.bucket x0 x1 x3 x4 b k := by
  have h := RowScatter.scatterAdd_rows_apply (φ := .f32) (w := 32) scatter_S32x6_S100000x1_S100000x6_1_0_0_1
    rfl rfl rfl rfl (val_main_v34 (F := Ideal)) (val_main_v35 (F := Ideal) x4) (val_main_v33 (F := Ideal) x0 x1 x3) b k
  unfold val_main_v36
  rw [h, v34_zero, zero_add]
  unfold Cert.VirialSpec.bucket
  rw [← Cert.VirialSpec.nodes_sum x3 x4 hr (fun e => Cert.VirialSpec.virAt x0 x1 e k) b]
  refine Finset.sum_congr rfl (fun n _ => ?_)
  rw [v35_apply, v33_apply]

end Cert.ReferenceIdeal.RefValue

end
-- ==== Proof.PreRange.lean ====
/-
  The precondition, read: besides the finiteness of the float inputs it says that every destination node index
  (row 1 of the edge table) is at least 0 and below the number of nodes, 100000, as a signed 32-bit integer.
-/
import proofs.«419347_j18382460027058_2_alg».proof.Pre_finite_inputs
import proofs.«419347_j18382460027058_2_alg».proof.Proof.Spec
import Idealize.ShloMosaic.Lib.ReduceAll
import Idealize.ShloMosaic.Lib.StableHlo.Predicate
import Idealize.ShloMosaic.Lib.Pipeline.Value

noncomputable section

namespace Cert.PreRange

open Idealize.ShloMosaic Idealize.ShloMosaic.ValueIdx Cert.Pre_finite_inputs

variable [Cert.Pre_finite_inputs.Facts]

/-- The scalar shape has exactly one index, so a reduction over every axis lands on it. -/
private instance : Subsingleton S_.Idx := ⟨fun a b => funext fun d => d.elim0⟩

/-- Row 1 of the 2 × E edge table, cut out as a 1 × E slab and flattened to a vector, holds at position e the
    table's entry (1, e): the flattening keeps the row-major position 0 · E + e = e, and the slab is the table
    shifted by one row. -/
private theorem dstRow_apply (a3 : IVec S2x6400000 32) (e : Fin 6400000) :
    shapeCast S6400000 (extractStridedSlice S1x6400000 ![1, 0] a3 Facts.slices_S2x6400000_S1x6400000_1_0)
        Facts.shapeCasts_S1x6400000_S6400000 (ix1 e)
      = a3 (ix2 (1 : Fin 2) e) := by
  refine (shapeCast_apply _ Facts.shapeCasts_S1x6400000_S6400000 (ix1 e) (ix2 (0 : Fin 1) e) ?_).trans ?_
  · rw [Shape.rowMajor_val_two, Shape.rowMajor_val_one]
    show 0 * 6400000 + e.val = e.val
    omega
  · exact extractStridedSlice_apply ![1, 0] a3 Facts.slices_S2x6400000_S1x6400000_1_0 (ix2 (0 : Fin 1) e) (ix2 (1 : Fin 2) e)
      (fun a => match a with
        | ⟨0, _⟩ => by show 1 = 1 + 0; rfl
        | ⟨1, _⟩ => by show e.val = 0 + e.val; omega)

/-- Where the printed precondition is all ones, every destination index is in range. -/
theorem dst_in_range {F : FTy → Type} [FloatOps F]
    (a0 a1 : FVec F S6400000x3 .f32) (a2 : FVec F S32 .f32) (a3 : IVec S2x6400000 32) (a4 : IVec S100000 32)
    (h : Cert.Pre_finite_inputs.fn (F := F) a0 a1 a2 a3 a4 = fun _ => 1#1) : Cert.VirialSpec.InRange a3 := by
  intro e
  have h0 := congrFun h ValueIdx.ix0
  dsimp only [fn, fn_part1] at h0
  -- the predicate is a conjunction whose last conjunct is the "and" over all edges of the two range tests
  obtain ⟨_, hall⟩ := IntOp.andi_eq_one.1 h0
  -- an "and" over all edges that came out 1 had a 1 at edge e
  have he := Host.reduce_andi_all _ _ _ _ ix0 hall (ix1 e)
  obtain ⟨hge, hlt⟩ := IntOp.andi_eq_one.1 he
  -- the two signed compares at edge e, read as inequalities between signed values
  have hge' := IntOp.cmpi_sge.1 hge
  have hlt' := IntOp.cmpi_slt.1 hlt
  rw [dstRow_apply] at hge' hlt'
  have z0 : (0#32 : BitVec 32).toInt = 0 := by decide
  have zN : (100000#32 : BitVec 32).toInt = 100000 := by decide
  exact ⟨z0 ▸ hge', zN ▸ hlt'⟩

end Cert.PreRange

end
-- ==== Proof.lean ====
/-
  The certificate of the edge-to-graph virial reduction.

  The two programs compute the same pair of results from the same five arrays.  The force is the same expression in
  both: the segment sum of the edge forces over the source nodes minus the one over the destination nodes.  The stress
  is, in both, the bucket sums negated and divided row by row by the cell volumes, where bucket b of component k is
  the sum of virial component k over the edges whose destination node lies in graph b.  The kernel reaches the bucket
  sums by reading each edge's graph through its destination and accumulating a one-hot product tile by tile; the
  reference reaches them by two segment sums, edges to nodes and nodes to graphs.  Over the extended reals a finite
  sum does not depend on its order or grouping, and 0·x = 0 and 1·x = x for every x, so the two agree wherever every
  destination index names a node: there each edge lands on exactly one node, which is what the precondition states.
  No finiteness of the float inputs is used.
-/
import proofs.«419347_j18382460027058_2_alg».proof.Defs
import proofs.«419347_j18382460027058_2_alg».proof.Proof.Gen.Kernel.Frame
import proofs.«419347_j18382460027058_2_alg».proof.Proof.Gen.KernelIdeal.Frame
import proofs.«419347_j18382460027058_2_alg».proof.Proof.Gen.ReferenceIdeal.Run
import proofs.«419347_j18382460027058_2_alg».proof.Proof.Gen.ReferenceIdeal.Read
import proofs.«419347_j18382460027058_2_alg».proof.Proof.Gen.Pre_finite_inputs
import proofs.«419347_j18382460027058_2_alg».proof.Proof.KernelValue
import proofs.«419347_j18382460027058_2_alg».proof.Proof.RefValue
import proofs.«419347_j18382460027058_2_alg».proof.Proof.PreRange

noncomputable section

namespace Cert.Proof

open Idealize.ShloMosaic Idealize.ShloMosaic.TcCoe Idealize.SL.Sem Idealize.ShloMosaic.ValueIdx

/-- The reference's stress is the bucket sums negated and divided by the cell volumes: its two segment sums are the
    bucket sums, and the negation, the two broadcasts of the cell volumes and the division are the kernel's own. -/
theorem stress_eq (x0 x1 : FVec Ideal Cert.ReferenceIdeal.S6400000x3 .f32) (x2 : FVec Ideal Cert.ReferenceIdeal.S32 .f32)
    (x3 : IVec Cert.ReferenceIdeal.S2x6400000 32) (x4 : IVec Cert.ReferenceIdeal.S100000 32)
    (hr : Cert.VirialSpec.InRange x3) :
    Cert.ReferenceIdeal.Read.val_main_v40 (F := Ideal) x0 x1 x2 x3 x4
      = Cert.KernelIdeal.KValue.stressOf (fun i => Cert.VirialSpec.bucket x0 x1 x3 x4 (i 0) (i 1)) x2 := by
  have hb : Cert.ReferenceIdeal.Read.val_main_v36 (F := Ideal) x0 x1 x3 x4
      = fun i => Cert.VirialSpec.bucket x0 x1 x3 x4 (i 0) (i 1) := by
    funext i
    obtain ⟨b, k, rfl⟩ : ∃ (b : Fin 32) (k : Fin 6), i = ix2 b k := ⟨i 0, i 1, eq_ix2 i⟩
    exact Cert.ReferenceIdeal.RefValue.sout_apply x0 x1 x3 x4 hr b k
  unfold Cert.ReferenceIdeal.Read.val_main_v40 Cert.ReferenceIdeal.Read.val_main_v37
  rw [hb]
  rfl

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the force at the two segment sums' difference and the stress at the bucket sums negated
    and divided by the cell volumes, of arguments that agree. -/
theorem algebraic : Cert.algebraic_KernelIdeal_ReferenceIdeal := by
  intro m ρ m' ρ' hpre hagree
  have hr : ∀ c : Dev Cert.KernelIdeal.nD, Cert.VirialSpec.InRange
      (m ((c.tc : Thread Cert.KernelIdeal.nD Cert.KernelIdeal.τ).loc Cert.KernelIdeal.main_arg3)) :=
    fun c => Cert.PreRange.dst_in_range _ _ _ _ _ (hpre c)
  refine ⟨_, _, Cert.KernelIdeal.KValue.run m ρ hr, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).2.1, (hagree c).2.2.2.1]
    rfl
  · refine (Cert.ReferenceIdeal.Read.val_main_v40_eq (F := Ideal) _ _ _ _ _).trans ?_
    rw [(hagree c).1, (hagree c).2.1, (hagree c).2.2.1, (hagree c).2.2.2.1, (hagree c).2.2.2.2]
    exact stress_eq _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
